-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x3200000 : Shape := ⟨2, ![2, 3200000]⟩
abbrev S3200000x2 : Shape := ⟨2, ![3200000, 2]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S3200000x2 : S_.BroadcastsInDim S3200000x2 (![] : Fin 0 → Fin S3200000x2.rank)
  reducesTo_S3200000x2_S_d0_1 : S3200000x2.ReducesTo [0, 1] S_

variable [Facts]

def fn {F : FTy → Type} [FloatOps F] (main_arg0 : FVec F S100000x6 .f32) (main_arg1 : FVec F S100000x6 .f32) (main_arg2 : IVec S2x3200000 32) (main_arg3 : FVec F S3200000x2 .f32) (main_arg4 : IVec S100000x6 1) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S100000x6 .f32 := Host.absf main_arg1
  let main_cst_0 : FVec F S_ .f32 := constant S_ .f32 0x7F800000#32
  let main_v5 : FVec F S100000x6 .f32 := broadcastInDim S100000x6 ![] bcast_S_S100000x6 main_cst_0
  let main_v6 : IVec S100000x6 1 := cmpf .olt main_v4 main_v5
  let main_c_1 : IVec S_ 1 := constantI S_ 1 1#1
  let main_v7 : IVec S_ 1 := (fun x v => Host.reduce IntOp.andi x v reducesTo_S100000x6_S_d0_1 h_S_) main_v6 main_c_1
  let main_v8 : IVec S_ 1 := andi main_v3 main_v7
  let main_v9 : FVec F S3200000x2 .f32 := Host.absf main_arg3
  let main_cst_2 : FVec F S_ .f32 := constant S_ .f32 0x7F800000#32
  let main_v10 : FVec F S3200000x2 .f32 := broadcastInDim S3200000x2 ![] bcast_S_S3200000x2 main_cst_2
  let main_v11 : IVec S3200000x2 1 := cmpf .olt main_v9 main_v10
  let main_c_3 : IVec S_ 1 := constantI S_ 1 1#1
  let main_v12 : IVec S_ 1 := (fun x v => Host.reduce IntOp.andi x v reducesTo_S3200000x2_S_d0_1 h_S_) main_v11 main_c_3
  let main_v13 : IVec S_ 1 := andi main_v8 main_v12
  main_v13
-- ==== Kernel.lean ====
abbrev S100000x6 : Shape := ⟨2, ![100000, 6]⟩
abbrev S2x3200000 : Shape := ⟨2, ![2, 3200000]⟩
abbrev S3200000x2 : Shape := ⟨2, ![3200000, 2]⟩
abbrev S100000x1 : Shape := ⟨2, ![100000, 1]⟩
abbrev S100000 : Shape := ⟨1, ![100000]⟩
abbrev S3200000x1 : Shape := ⟨2, ![3200000, 1]⟩
abbrev S3200000 : Shape := ⟨1, ![3200000]⟩
abbrev S1x3200000 : Shape := ⟨2, ![1, 3200000]⟩
abbrev S_ : Shape := ⟨0, ![]⟩
abbrev S25000x128 : Shape := ⟨2, ![25000, 128]⟩
abbrev S1000x128 : Shape := ⟨2, ![1000, 128]⟩
abbrev S100352 : Shape := ⟨1, ![100352]⟩
abbrev S784x128 : Shape := ⟨2, ![784, 128]⟩
abbrev S1x1 : Shape := ⟨2, ![1, 1]⟩
abbrev S784 : Shape := ⟨1, ![784]⟩
abbrev S784x1 : Shape := ⟨2, ![784, 1]⟩
abbrev S1 : Shape := ⟨1, ![1]⟩

abbrev nBuf : Space → Nat
  | .hbm => 106
  | .vmem => 23
  | .smem => 0
  | _ => 0

abbrev bufTy : (tb : Table) → Fin (tcTables nBuf tb) → BufTy
  | .hbm, ⟨0, _⟩ => ⟨S100000x6, .f32⟩
  | .hbm, ⟨1, _⟩ => ⟨S100000x6, .f32⟩
  | .hbm, ⟨2, _⟩ => ⟨S2x3200000, .i32⟩
  | .hbm, ⟨3, _⟩ => ⟨S3200000x2, .f32⟩
  | .hbm, ⟨4, _⟩ => ⟨S100000x6, .i1⟩
  | .hbm, ⟨5, _⟩ => ⟨S100000x6, .f32⟩
  | .hbm, ⟨6, _⟩ => ⟨S100000x1, .f32⟩
  | .hbm, ⟨7, _⟩ => ⟨S100000, .f32⟩
  | .hbm, ⟨8, _⟩ => ⟨S100000x1, .f32⟩
  | .hbm, ⟨9, _⟩ => ⟨S100000, .f32⟩
  | .hbm, ⟨10, _⟩ => ⟨S100000x1, .f32⟩
  | .hbm, ⟨11, _⟩ => ⟨S100000, .f32⟩
  | .hbm, ⟨12, _⟩ => ⟨S100000x1, .f32⟩
  | .hbm, ⟨13, _⟩ => ⟨S100000, .f32⟩
  | .hbm, ⟨14, _⟩ => ⟨S100000x1, .f32⟩
  | .hbm, ⟨15, _⟩ => ⟨S100000, .f32⟩
  | .hbm, ⟨16, _⟩ => ⟨S100000x1, .f32⟩
  | .hbm, ⟨17, _⟩ => ⟨S100000, .f32⟩
  | .hbm, ⟨18, _⟩ => ⟨S3200000x1, .f32⟩
  | .hbm, ⟨19, _⟩ => ⟨S3200000, .f32⟩
  | .hbm, ⟨20, _⟩ => ⟨S3200000x1, .f32⟩
  | .hbm, ⟨21, _⟩ => ⟨S3200000, .f32⟩
  | .hbm, ⟨22, _⟩ => ⟨S1x3200000, .i32⟩
  | .hbm, ⟨23, _⟩ => ⟨S3200000, .i32⟩
  | .hbm, ⟨24, _⟩ => ⟨S1x3200000, .i32⟩
  | .hbm, ⟨25, _⟩ => ⟨S3200000, .i32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000, .f32⟩
  | .hbm, ⟨53, _⟩ => ⟨S_, .i32⟩
  | .hbm, ⟨54, _⟩ => ⟨S3200000, .i32⟩
  | .hbm, ⟨55, _⟩ => ⟨S3200000, .i1⟩
  | .hbm, ⟨56, _⟩ => ⟨S_, .i32⟩
  | .hbm, ⟨57, _⟩ => ⟨S3200000, .i32⟩
  | .hbm, ⟨58, _⟩ => ⟨S3200000, .i32⟩
  | .hbm, ⟨59, _⟩ => ⟨S3200000, .i32⟩
  | .hbm, ⟨60, _⟩ => ⟨S3200000x1, .i32⟩
  | .hbm, ⟨61, _⟩ => ⟨S3200000, .f32⟩
  | .hbm, ⟨62, _⟩ => ⟨S25000x128, .f32⟩
  | .hbm, ⟨63, _⟩ => ⟨S25000x128, .f32⟩
  | .hbm, ⟨64, _⟩ => ⟨S25000x128, .f32⟩
  | .hbm, ⟨65, _⟩ => ⟨S25000x128, .f32⟩
  | .hbm, ⟨66, _⟩ => ⟨S25000x128, .f32⟩
  | .hbm, ⟨67, _⟩ => ⟨S25000x128, .f32⟩
  | .hbm, ⟨68, _⟩ => ⟨S25000x128, .f32⟩
  | .hbm, ⟨69, _⟩ => ⟨S25000x128, .f32⟩
  | .hbm, ⟨70, _⟩ => ⟨S3200000, .f32⟩
  | .hbm, ⟨71, _⟩ => ⟨S3200000, .f32⟩
  | .hbm, ⟨72, _⟩ => ⟨S_, .f32⟩
  | .hbm, ⟨73, _⟩ => ⟨S100000, .f32⟩
  | .hbm, ⟨74, _⟩ => ⟨S3200000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S3200000x1, .i32⟩
  | .hbm, ⟨79, _⟩ => ⟨S100000, .f32⟩
  | .hbm, ⟨80, _⟩ => ⟨S_, .i32⟩
  | .hbm, ⟨81, _⟩ => ⟨S_, .f32⟩
  | .hbm, ⟨82, _⟩ => ⟨S100352, .f32⟩
  | .hbm, ⟨83, _⟩ => ⟨S784x128, .f32⟩
  | .hbm, ⟨84, _⟩ => ⟨S_, .i32⟩
  | .hbm, ⟨85, _⟩ => ⟨S_, .f32⟩
  | .hbm, ⟨86, _⟩ => ⟨S100352, .f32⟩
  | .hbm, ⟨87, _⟩ => ⟨S784x128, .f32⟩
  | .hbm, ⟨88, _⟩ => ⟨S_, .i32⟩
  | .hbm, ⟨89, _⟩ => ⟨S_, .f32⟩
  | .hbm, ⟨90, _⟩ => ⟨S100352, .f32⟩
  | .hbm, ⟨91, _⟩ => ⟨S784x128, .f32⟩
  | .hbm, ⟨92, _⟩ => ⟨S_, .i32⟩
  | .hbm, ⟨93, _⟩ => ⟨S_, .f32⟩
  | .hbm, ⟨94, _⟩ => ⟨S100352, .f32⟩
  | .hbm, ⟨95, _⟩ => ⟨S784x128, .f32⟩
  | .hbm, ⟨96, _⟩ => ⟨S_, .i32⟩
  | .hbm, ⟨97, _⟩ => ⟨S_, .f32⟩
  | .hbm, ⟨98, _⟩ => ⟨S100352, .f32⟩
  | .hbm, ⟨99, _⟩ => ⟨S784x128, .f32⟩
  | .hbm, ⟨100, _⟩ => ⟨S_, .i32⟩
  | .hbm, ⟨101, _⟩ => ⟨S_, .f32⟩
  | .hbm, ⟨102, _⟩ => ⟨S100352, .f32⟩
  | .hbm, ⟨103, _⟩ => ⟨S784x128, .f32⟩
  | .hbm, ⟨104, _⟩ => ⟨S1x1, .f32⟩
  | .hbm, ⟨105, _⟩ => ⟨S_, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S784x128, .f32⟩
  | .local _ .vmem, ⟨17, _⟩ => ⟨S784x128, .f32⟩
  | .local _ .vmem, ⟨18, _⟩ => ⟨S784x128, .f32⟩
  | .local _ .vmem, ⟨19, _⟩ => ⟨S784x128, .f32⟩
  | .local _ .vmem, ⟨20, _⟩ => ⟨S784x128, .f32⟩
  | .local _ .vmem, ⟨21, _⟩ => ⟨S784x128, .f32⟩
  | .local _ .vmem, ⟨22, _⟩ => ⟨S1x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_c_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55_0 : Ref sig .tc := ⟨.hbm, 68, rfl⟩
abbrev main_v55_1 : Ref sig .tc := ⟨.hbm, 69, rfl⟩
abbrev main_v56 : Ref sig .tc := ⟨.hbm, 70, rfl⟩
abbrev main_v57 : Ref sig .tc := ⟨.hbm, 71, rfl⟩
abbrev main_cst : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_8 : Ref sig .tc := ⟨.hbm, 80, rfl⟩
abbrev main_call1_v0 : Ref sig .tc := ⟨.hbm, 81, rfl⟩
abbrev main_v64 : Ref sig .tc := ⟨.hbm, 82, rfl⟩
abbrev main_v65 : Ref sig .tc := ⟨.hbm, 83, rfl⟩
abbrev main_c_9 : Ref sig .tc := ⟨.hbm, 84, rfl⟩
abbrev main_call2_v0 : Ref sig .tc := ⟨.hbm, 85, rfl⟩
abbrev main_v66 : Ref sig .tc := ⟨.hbm, 86, rfl⟩
abbrev main_v67 : Ref sig .tc := ⟨.hbm, 87, rfl⟩
abbrev main_c_10 : Ref sig .tc := ⟨.hbm, 88, rfl⟩
abbrev main_call3_v0 : Ref sig .tc := ⟨.hbm, 89, rfl⟩
abbrev main_v68 : Ref sig .tc := ⟨.hbm, 90, rfl⟩
abbrev main_v69 : Ref sig .tc := ⟨.hbm, 91, rfl⟩
abbrev main_c_11 : Ref sig .tc := ⟨.hbm, 92, rfl⟩
abbrev main_call4_v0 : Ref sig .tc := ⟨.hbm, 93, rfl⟩
abbrev main_v70 : Ref sig .tc := ⟨.hbm, 94, rfl⟩
abbrev main_v71 : Ref sig .tc := ⟨.hbm, 95, rfl⟩
abbrev main_c_12 : Ref sig .tc := ⟨.hbm, 96, rfl⟩
abbrev main_call5_v0 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_call6_v0 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S784x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S784x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S784x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S784x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S784x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S784x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S100000x6_S100000x1_0_0 : S100000x6.Slices ![0, 0] S100000x1
  shapeCasts_S100000x1_S100000 : S100000x1.ShapeCasts S100000
  slices_S100000x6_S100000x1_0_1 : S100000x6.Slices ![0, 1] S100000x1
  slices_S100000x6_S100000x1_0_2 : S100000x6.Slices ![0, 2] S100000x1
  slices_S100000x6_S100000x1_0_3 : S100000x6.Slices ![0, 3] S100000x1
  slices_S100000x6_S100000x1_0_4 : S100000x6.Slices ![0, 4] S100000x1
  slices_S100000x6_S100000x1_0_5 : S100000x6.Slices ![0, 5] S100000x1
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S25000x128 : S3200000.ShapeCasts S25000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S25000x128_S3200000 : S25000x128.ShapeCasts S3200000
  bcast_S_S100000 : S_.BroadcastsInDim S100000 (![] : Fin 0 → Fin S100000.rank)
  pads_S100000_S100352_03520 : S100000.Pads (![0] : Fin 1 → Nat) ![352] ![0] S100352
  h_S_ : 0 < S_.numel
  shapeCasts_S100352_S784x128 : S100352.ShapeCasts S784x128
  inb_S784x128_S784x128_0_0 : ∀ a, (![0, 0] : Fin 2 → Nat) a + S784x128.size a ≤ S784x128.size a
  h_S784x128 : 0 < S784x128.numel
  shapeCasts_S784x128_S784x128 : S784x128.ShapeCasts S784x128
  reduces_S784x128_S784 : S784x128.Reduces [1] S784
  shapeCasts_S784_S784x1 : S784.ShapeCasts S784x1
  reduces_S784x1_S1 : S784x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  gather_S100000_S3200000x1_S3200000_n_0_n_n_0_1_1_wf : GatherDims.WF S100000 S3200000x1 S3200000 [] [0] [] [0] [] 1 ![1]
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S25000x128.size a
  hwx0_0 : ∀ i : grid0.Coords, EltTy.bits .f32 = 32 ∨ (Rect.block (s := S25000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S25000x128.size a
  hwx0_1 : ∀ i : grid0.Coords, EltTy.bits .f32 = 32 ∨ (Rect.block (s := S25000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S25000x128.size a
  hwx0_2 : ∀ i : grid0.Coords, EltTy.bits .f32 = 32 ∨ (Rect.block (s := S25000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S25000x128.size a
  hwx0_3 : ∀ i : grid0.Coords, EltTy.bits .f32 = 32 ∨ (Rect.block (s := S25000x128) S1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S25000x128.size a
  hwx0_4 : ∀ i : grid0.Coords, EltTy.bits .f32 = 32 ∨ (Rect.block (s := S25000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S25000x128.size a
  hwx0_5 : ∀ i : grid0.Coords, EltTy.bits .f32 = 32 ∨ (Rect.block (s := S25000x128) S1000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S25000x128.size a
  hwx0_6 : ∀ i : grid0.Coords, EltTy.bits .f32 = 32 ∨ (Rect.block (s := S25000x128) S1000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S25000x128.size a
  hwx0_7 : ∀ i : grid0.Coords, EltTy.bits .f32 = 32 ∨ (Rect.block (s := S25000x128) S1000x128.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S784x128.size a ≤ S784x128.size a
  hwx1_0 : ∀ i : grid1.Coords, EltTy.bits .f32 = 32 ∨ (Rect.block (s := S784x128) S784x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S784x128.size a ≤ S784x128.size a
  hwx1_1 : ∀ i : grid1.Coords, EltTy.bits .f32 = 32 ∨ (Rect.block (s := S784x128) S784x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S784x128.size a ≤ S784x128.size a
  hwx1_2 : ∀ i : grid1.Coords, EltTy.bits .f32 = 32 ∨ (Rect.block (s := S784x128) S784x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S784x128.size a ≤ S784x128.size a
  hwx1_3 : ∀ i : grid1.Coords, EltTy.bits .f32 = 32 ∨ (Rect.block (s := S784x128) S784x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S784x128.size a ≤ S784x128.size a
  hwx1_4 : ∀ i : grid1.Coords, EltTy.bits .f32 = 32 ∨ (Rect.block (s := S784x128) S784x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S784x128.size a ≤ S784x128.size a
  hwx1_5 : ∀ i : grid1.Coords, EltTy.bits .f32 = 32 ∨ (Rect.block (s := S784x128) S784x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_v49) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53) S1000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54) S1000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v55_0) S1000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v55_1) S1000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v65) S784x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v67) S784x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v69) S784x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S784x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v73) S784x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v75) S784x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v76) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x6 : Shape := ⟨2, ![100000, 6]⟩
abbrev S2x3200000 : Shape := ⟨2, ![2, 3200000]⟩
abbrev S3200000x2 : Shape := ⟨2, ![3200000, 2]⟩
abbrev S100000x1 : Shape := ⟨2, ![100000, 1]⟩
abbrev S100000 : Shape := ⟨1, ![100000]⟩
abbrev S3200000x1 : Shape := ⟨2, ![3200000, 1]⟩
abbrev S3200000 : Shape := ⟨1, ![3200000]⟩
abbrev S1x3200000 : Shape := ⟨2, ![1, 3200000]⟩
abbrev S_ : Shape := ⟨0, ![]⟩

abbrev nBuf : Space → Nat
  | .hbm => 97
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S100000x6, .f32⟩
  | .hbm, ⟨2, _⟩ => ⟨S2x3200000, .i32⟩
  | .hbm, ⟨3, _⟩ => ⟨S3200000x2, .f32⟩
  | .hbm, ⟨4, _⟩ => ⟨S100000x6, .i1⟩
  | .hbm, ⟨5, _⟩ => ⟨S100000x6, .f32⟩
  | .hbm, ⟨6, _⟩ => ⟨S100000x1, .f32⟩
  | .hbm, ⟨7, _⟩ => ⟨S100000, .f32⟩
  | .hbm, ⟨8, _⟩ => ⟨S100000x1, .f32⟩
  | .hbm, ⟨9, _⟩ => ⟨S100000, .f32⟩
  | .hbm, ⟨10, _⟩ => ⟨S100000x1, .f32⟩
  | .hbm, ⟨11, _⟩ => ⟨S100000, .f32⟩
  | .hbm, ⟨12, _⟩ => ⟨S100000x1, .f32⟩
  | .hbm, ⟨13, _⟩ => ⟨S100000, .f32⟩
  | .hbm, ⟨14, _⟩ => ⟨S100000x1, .f32⟩
  | .hbm, ⟨15, _⟩ => ⟨S100000, .f32⟩
  | .hbm, ⟨16, _⟩ => ⟨S100000x1, .f32⟩
  | .hbm, ⟨17, _⟩ => ⟨S100000, .f32⟩
  | .hbm, ⟨18, _⟩ => ⟨S3200000x1, .f32⟩
  | .hbm, ⟨19, _⟩ => ⟨S3200000, .f32⟩
  | .hbm, ⟨20, _⟩ => ⟨S3200000x1, .f32⟩
  | .hbm, ⟨21, _⟩ => ⟨S3200000, .f32⟩
  | .hbm, ⟨22, _⟩ => ⟨S1x3200000, .i32⟩
  | .hbm, ⟨23, _⟩ => ⟨S3200000, .i32⟩
  | .hbm, ⟨24, _⟩ => ⟨S1x3200000, .i32⟩
  | .hbm, ⟨25, _⟩ => ⟨S3200000, .i32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000, .f32⟩
  | .hbm, ⟨53, _⟩ => ⟨S_, .i32⟩
  | .hbm, ⟨54, _⟩ => ⟨S3200000, .i32⟩
  | .hbm, ⟨55, _⟩ => ⟨S3200000, .i1⟩
  | .hbm, ⟨56, _⟩ => ⟨S_, .i32⟩
  | .hbm, ⟨57, _⟩ => ⟨S3200000, .i32⟩
  | .hbm, ⟨58, _⟩ => ⟨S3200000, .i32⟩
  | .hbm, ⟨59, _⟩ => ⟨S3200000, .i32⟩
  | .hbm, ⟨60, _⟩ => ⟨S3200000x1, .i32⟩
  | .hbm, ⟨61, _⟩ => ⟨S3200000, .f32⟩
  | .hbm, ⟨62, _⟩ => ⟨S3200000, .f32⟩
  | .hbm, ⟨63, _⟩ => ⟨S3200000, .f32⟩
  | .hbm, ⟨64, _⟩ => ⟨S3200000, .f32⟩
  | .hbm, ⟨65, _⟩ => ⟨S3200000, .f32⟩
  | .hbm, ⟨66, _⟩ => ⟨S3200000, .f32⟩
  | .hbm, ⟨67, _⟩ => ⟨S3200000, .f32⟩
  | .hbm, ⟨68, _⟩ => ⟨S3200000, .f32⟩
  | .hbm, ⟨69, _⟩ => ⟨S3200000, .f32⟩
  | .hbm, ⟨70, _⟩ => ⟨S3200000, .f32⟩
  | .hbm, ⟨71, _⟩ => ⟨S3200000, .f32⟩
  | .hbm, ⟨72, _⟩ => ⟨S3200000, .f32⟩
  | .hbm, ⟨73, _⟩ => ⟨S3200000, .f32⟩
  | .hbm, ⟨74, _⟩ => ⟨S_, .f32⟩
  | .hbm, ⟨75, _⟩ => ⟨S100000, .f32⟩
  | .hbm, ⟨76, _⟩ => ⟨S3200000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S3200000x1, .i32⟩
  | .hbm, ⟨81, _⟩ => ⟨S100000, .f32⟩
  | .hbm, ⟨82, _⟩ => ⟨S100000, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S100000, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_c_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_8 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_cst_11 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]

class Facts₀ : Prop where
  slices_S100000x6_S100000x1_0_0 : S100000x6.Slices ![0, 0] S100000x1
  shapeCasts_S100000x1_S100000 : S100000x1.ShapeCasts S100000
  slices_S100000x6_S100000x1_0_1 : S100000x6.Slices ![0, 1] S100000x1
  slices_S100000x6_S100000x1_0_2 : S100000x6.Slices ![0, 2] S100000x1
  slices_S100000x6_S100000x1_0_3 : S100000x6.Slices ![0, 3] S100000x1
  slices_S100000x6_S100000x1_0_4 : S100000x6.Slices ![0, 4] S100000x1
  slices_S100000x6_S100000x1_0_5 : S100000x6.Slices ![0, 5] S100000x1
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  reducesTo_S100000_S_d0 : S100000.ReducesTo [0] S_
  h_S_ : 0 < S_.numel
  gather_S100000_S3200000x1_S3200000_n_0_n_n_0_1_1_wf : GatherDims.WF S100000 S3200000x1 S3200000 [] [0] [] [0] [] 1 ![1]
  scatter_S100000_S3200000x1_S3200000_n_0_0_1_wf : ScatterDims.WF S100000 S3200000x1 S3200000 [] [0] [0] 1

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.EdgeFlow.lean ====
/-
  The edge stage of the power-flow loss, read as one function of its operands.

  The first region runs a 25-point grid over [25000, 128] arrays in row blocks of 1000. Its body is a tree of
  pointwise operations of six operand blocks: with the angle difference δ = θ_src − θ_dst and the voltage product
  vv = v_from · v_to it stores the active flow vv · (g · cos δ + b · sin δ) and the reactive flow
  vv · (g · sin δ − b · cos δ). Every window moves with the grid point on the row axis and never on the lane axis, so
  the operand blocks a point reads sit at exactly the rows and lanes of the output block it writes: what the point
  writes back is the block of ONE whole-array function of the six operand arrays. The 25 row blocks tile the 25000
  rows, so after the region each output array IS that function, whatever the operand arrays hold (`V` below is any
  contents of the buffers at region entry).
-/
import proofs.«139891_j89936615178647_1_alg».proof.Proof.Gen.KernelIdeal.Frame
import Idealize.ShloMosaic.Lib.Pipeline.Value

set_option maxRecDepth 16384

noncomputable section

namespace Cert.KernelIdeal.EdgeFlow

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's loads and stores start at the origin of their staging buffers. -/
theorem origin_zero : (![0, 0] : Fin 2 → Nat) = fun _ => 0 := funext fun a => by fin_cases a <;> rfl

/-! ## Output window 6: the active flow vv · (g · cos δ + b · sin δ) -/

/-- the active flow vv · (g · cos δ + b · sin δ), entry by entry, as one function of the six operand arrays. -/
abbrev pflow {S : Shape} (vf vt sa da g b : S.Idx → Elt F .f32) : S.Idx → Elt F .f32 := fun i =>
  FloatOps.mulf (FloatOps.mulf (vf i) (vt i)) (FloatOps.addf (FloatOps.mulf (g i) (FloatOps.cos (FloatOps.subf (sa i) (da i)))) (FloatOps.mulf (b i) (FloatOps.sin (FloatOps.subf (sa i) (da i)))))

/-- The body's stored value is the active flow of its six loaded blocks (its same-shape casts are identities). -/
theorem pflow_payload (x2 x3 x0 x1 x4 x5 : Vec F S1000x128 .f32) :
    k0_pay7 x2 x3 x0 x1 x4 x5 = pflow x0 x1 x2 x3 x4 x5 := by
  unfold k0_pay7 k0_pay5 k0_pay6 k0_pay4 k0_pay2 k0_pay3 k0_pay1
  simp only [shapeCast_self]
  rfl

/-- Over the 25 grid points: every operand's block index is the output's, on both axes, and the output's stays in
    0 … 24 by 0. -/
theorem pflow_index : ∀ t : Fin cfg0.N, win0_0.index t (0 : Fin 2) = win0_6.index t (0 : Fin 2)
    ∧ win0_0.index t (1 : Fin 2) = win0_6.index t (1 : Fin 2)
    ∧ win0_1.index t (0 : Fin 2) = win0_6.index t (0 : Fin 2)
    ∧ win0_1.index t (1 : Fin 2) = win0_6.index t (1 : Fin 2)
    ∧ win0_2.index t (0 : Fin 2) = win0_6.index t (0 : Fin 2)
    ∧ win0_2.index t (1 : Fin 2) = win0_6.index t (1 : Fin 2)
    ∧ win0_3.index t (0 : Fin 2) = win0_6.index t (0 : Fin 2)
    ∧ win0_3.index t (1 : Fin 2) = win0_6.index t (1 : Fin 2)
    ∧ win0_4.index t (0 : Fin 2) = win0_6.index t (0 : Fin 2)
    ∧ win0_4.index t (1 : Fin 2) = win0_6.index t (1 : Fin 2)
    ∧ win0_5.index t (0 : Fin 2) = win0_6.index t (0 : Fin 2)
    ∧ win0_5.index t (1 : Fin 2) = win0_6.index t (1 : Fin 2)
    ∧ win0_6.index t (0 : Fin 2) ≤ 24 ∧ win0_6.index t (1 : Fin 2) ≤ 0 :=
  (by decide +kernel : ∀ t : Fin grid0.N, _)

/-- Every one of the 25 row blocks is some grid point's. -/
theorem pflow_onto : ∀ (q0 : Fin 25) (q1 : Fin 1), ∃ t : Fin cfg0.N, win0_6.index t = ![q0.val, q1.val] :=
  (by decide +kernel : ∀ (q0 : Fin 25) (q1 : Fin 1), ∃ t : Fin grid0.N, win0_6.index t = ![q0.val, q1.val])

/-- Operand 0's block at a point sits at the rows and lanes of output window 6's block at that point. -/
theorem pflow_emb0 (t : Fin cfg0.N) (j : ((cfg0.win 6).xblock (grid0.coords t)).Idx) :
    ((cfg0.win 0).blk t).view.emb j = ((cfg0.win 6).blk t).view.emb j := by
  obtain ⟨e00, e01, e10, e11, e20, e21, e30, e31, e40, e41, e50, e51, -, -⟩ := pflow_index t
  funext a; apply Fin.ext
  match a with
  | ⟨0, _⟩ => show win0_0.index t (0 : Fin 2) * 1000 + 1 * (j 0).val = win0_6.index t (0 : Fin 2) * 1000 + 1 * (j 0).val; omega
  | ⟨1, _⟩ => show win0_0.index t (1 : Fin 2) * 128 + 1 * (j 1).val = win0_6.index t (1 : Fin 2) * 128 + 1 * (j 1).val; omega

/-- Operand 1's block at a point sits at the rows and lanes of output window 6's block at that point. -/
theorem pflow_emb1 (t : Fin cfg0.N) (j : ((cfg0.win 6).xblock (grid0.coords t)).Idx) :
    ((cfg0.win 1).blk t).view.emb j = ((cfg0.win 6).blk t).view.emb j := by
  obtain ⟨e00, e01, e10, e11, e20, e21, e30, e31, e40, e41, e50, e51, -, -⟩ := pflow_index t
  funext a; apply Fin.ext
  match a with
  | ⟨0, _⟩ => show win0_1.index t (0 : Fin 2) * 1000 + 1 * (j 0).val = win0_6.index t (0 : Fin 2) * 1000 + 1 * (j 0).val; omega
  | ⟨1, _⟩ => show win0_1.index t (1 : Fin 2) * 128 + 1 * (j 1).val = win0_6.index t (1 : Fin 2) * 128 + 1 * (j 1).val; omega

/-- Operand 2's block at a point sits at the rows and lanes of output window 6's block at that point. -/
theorem pflow_emb2 (t : Fin cfg0.N) (j : ((cfg0.win 6).xblock (grid0.coords t)).Idx) :
    ((cfg0.win 2).blk t).view.emb j = ((cfg0.win 6).blk t).view.emb j := by
  obtain ⟨e00, e01, e10, e11, e20, e21, e30, e31, e40, e41, e50, e51, -, -⟩ := pflow_index t
  funext a; apply Fin.ext
  match a with
  | ⟨0, _⟩ => show win0_2.index t (0 : Fin 2) * 1000 + 1 * (j 0).val = win0_6.index t (0 : Fin 2) * 1000 + 1 * (j 0).val; omega
  | ⟨1, _⟩ => show win0_2.index t (1 : Fin 2) * 128 + 1 * (j 1).val = win0_6.index t (1 : Fin 2) * 128 + 1 * (j 1).val; omega

/-- Operand 3's block at a point sits at the rows and lanes of output window 6's block at that point. -/
theorem pflow_emb3 (t : Fin cfg0.N) (j : ((cfg0.win 6).xblock (grid0.coords t)).Idx) :
    ((cfg0.win 3).blk t).view.emb j = ((cfg0.win 6).blk t).view.emb j := by
  obtain ⟨e00, e01, e10, e11, e20, e21, e30, e31, e40, e41, e50, e51, -, -⟩ := pflow_index t
  funext a; apply Fin.ext
  match a with
  | ⟨0, _⟩ => show win0_3.index t (0 : Fin 2) * 1000 + 1 * (j 0).val = win0_6.index t (0 : Fin 2) * 1000 + 1 * (j 0).val; omega
  | ⟨1, _⟩ => show win0_3.index t (1 : Fin 2) * 128 + 1 * (j 1).val = win0_6.index t (1 : Fin 2) * 128 + 1 * (j 1).val; omega

/-- Operand 4's block at a point sits at the rows and lanes of output window 6's block at that point. -/
theorem pflow_emb4 (t : Fin cfg0.N) (j : ((cfg0.win 6).xblock (grid0.coords t)).Idx) :
    ((cfg0.win 4).blk t).view.emb j = ((cfg0.win 6).blk t).view.emb j := by
  obtain ⟨e00, e01, e10, e11, e20, e21, e30, e31, e40, e41, e50, e51, -, -⟩ := pflow_index t
  funext a; apply Fin.ext
  match a with
  | ⟨0, _⟩ => show win0_4.index t (0 : Fin 2) * 1000 + 1 * (j 0).val = win0_6.index t (0 : Fin 2) * 1000 + 1 * (j 0).val; omega
  | ⟨1, _⟩ => show win0_4.index t (1 : Fin 2) * 128 + 1 * (j 1).val = win0_6.index t (1 : Fin 2) * 128 + 1 * (j 1).val; omega

/-- Operand 5's block at a point sits at the rows and lanes of output window 6's block at that point. -/
theorem pflow_emb5 (t : Fin cfg0.N) (j : ((cfg0.win 6).xblock (grid0.coords t)).Idx) :
    ((cfg0.win 5).blk t).view.emb j = ((cfg0.win 6).blk t).view.emb j := by
  obtain ⟨e00, e01, e10, e11, e20, e21, e30, e31, e40, e41, e50, e51, -, -⟩ := pflow_index t
  funext a; apply Fin.ext
  match a with
  | ⟨0, _⟩ => show win0_5.index t (0 : Fin 2) * 1000 + 1 * (j 0).val = win0_6.index t (0 : Fin 2) * 1000 + 1 * (j 0).val; omega
  | ⟨1, _⟩ => show win0_5.index t (1 : Fin 2) * 128 + 1 * (j 1).val = win0_6.index t (1 : Fin 2) * 128 + 1 * (j 1).val; omega

set_option maxHeartbeats 800000 in
/-- What grid point `t` writes back is block `t` of `pflow` of the operand arrays as the region finds them: the six
    operand blocks sit at the output block's own rows and lanes. -/
theorem pflow_flushed (c : Dev nD) (t : Fin cfg0.N) :
    (dat0 V c).flushed 6 t = ((cfg0.win 6).blk t).view.read (Elt F)
      (pflow (S := S25000x128) (V c main_v49) (V c main_v50) (V c main_v51) (V c main_v52) (V c main_v53) (V c main_v54)) := by
  show (cfg0.win 6).cut (grid0.coords t) ((dat0 V c).after 6 t) = _
  rw [after0_6]
  unfold out0_6
  rw [View.canon_unit_zero origin_zero]
  simp only [View.ld_unit_zero (S := S1000x128) origin_zero]
  rw [pflow_payload]
  funext j
  show FloatOps.mulf (FloatOps.mulf (V c main_v49 (((cfg0.win 0).blk t).view.emb j)) (V c main_v50 (((cfg0.win 1).blk t).view.emb j))) (FloatOps.addf (FloatOps.mulf (V c main_v53 (((cfg0.win 4).blk t).view.emb j)) (FloatOps.cos (FloatOps.subf (V c main_v51 (((cfg0.win 2).blk t).view.emb j)) (V c main_v52 (((cfg0.win 3).blk t).view.emb j))))) (FloatOps.mulf (V c main_v54 (((cfg0.win 5).blk t).view.emb j)) (FloatOps.sin (FloatOps.subf (V c main_v51 (((cfg0.win 2).blk t).view.emb j)) (V c main_v52 (((cfg0.win 3).blk t).view.emb j))))))
    = FloatOps.mulf (FloatOps.mulf (V c main_v49 (((cfg0.win 6).blk t).view.emb j)) (V c main_v50 (((cfg0.win 6).blk t).view.emb j))) (FloatOps.addf (FloatOps.mulf (V c main_v53 (((cfg0.win 6).blk t).view.emb j)) (FloatOps.cos (FloatOps.subf (V c main_v51 (((cfg0.win 6).blk t).view.emb j)) (V c main_v52 (((cfg0.win 6).blk t).view.emb j))))) (FloatOps.mulf (V c main_v54 (((cfg0.win 6).blk t).view.emb j)) (FloatOps.sin (FloatOps.subf (V c main_v51 (((cfg0.win 6).blk t).view.emb j)) (V c main_v52 (((cfg0.win 6).blk t).view.emb j))))))
  have key : ∀ (i0 i1 i2 i3 i4 i5 i6 : S25000x128.Idx), i0 = i6 → i1 = i6 → i2 = i6 → i3 = i6 → i4 = i6 → i5 = i6 →
      FloatOps.mulf (FloatOps.mulf (V c main_v49 i0) (V c main_v50 i1)) (FloatOps.addf (FloatOps.mulf (V c main_v53 i4) (FloatOps.cos (FloatOps.subf (V c main_v51 i2) (V c main_v52 i3)))) (FloatOps.mulf (V c main_v54 i5) (FloatOps.sin (FloatOps.subf (V c main_v51 i2) (V c main_v52 i3)))))
        = FloatOps.mulf (FloatOps.mulf (V c main_v49 i6) (V c main_v50 i6)) (FloatOps.addf (FloatOps.mulf (V c main_v53 i6) (FloatOps.cos (FloatOps.subf (V c main_v51 i6) (V c main_v52 i6)))) (FloatOps.mulf (V c main_v54 i6) (FloatOps.sin (FloatOps.subf (V c main_v51 i6) (V c main_v52 i6))))) := by
    intro i0 i1 i2 i3 i4 i5 i6 g0 g1 g2 g3 g4 g5
    rw [g0, g1, g2, g3, g4, g5]
  exact key _ _ _ _ _ _ _ (pflow_emb0 t j) (pflow_emb1 t j) (pflow_emb2 t j) (pflow_emb3 t j) (pflow_emb4 t j) (pflow_emb5 t j)

/-- An index of the array lies in point `t`'s block iff each coordinate lies in the block's range on its axis. -/
theorem pflow_mem_blk (t : Fin cfg0.N) (i : S25000x128.Idx) :
    i ∈ ((cfg0.win 6).blk t).view.set ↔ ∀ a : Fin 2, win0_6.index t a * S1000x128.size a ≤ (i a).val ∧ (i a).val < win0_6.index t a * S1000x128.size a + S1000x128.size a := by
  show i ∈ ((View.whole main_v55_0).slice (win0_6.rect t)).set ↔ _
  rw [View.set_slice_whole, Rect.mem_set_unit]
  exact Iff.rfl

/-- Every index of the array lies in the block of the point that owns its row block. -/
theorem pflow_cover (i : S25000x128.Idx) :
    ∃ t : Fin cfg0.N, (cfg0.win 6).flush t = true ∧ i ∈ ((cfg0.win 6).blk t).view.set := by
  have hi0 : (i 0).val < 25000 := (i 0).isLt
  have hi1 : (i 1).val < 128 := (i 1).isLt
  obtain ⟨t, ht⟩ := pflow_onto ⟨(i 0).val / 1000, by omega⟩ ⟨(i 1).val / 128, by omega⟩
  have q0 : win0_6.index t (0 : Fin 2) = (i 0).val / 1000 := congrFun ht 0
  have q1 : win0_6.index t (1 : Fin 2) = (i 1).val / 128 := congrFun ht 1
  refine ⟨t, flush0_6 t, ?_⟩
  rw [pflow_mem_blk]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 128 ≤ (i 1).val ∧ (i 1).val < win0_6.index t (1 : Fin 2) * 128 + 128; omega

/-- The array after the region: `pflow` of the operand arrays, everywhere. -/
theorem pflow_final (c : Dev nD) : (dat0 V c).arrAt 6 cfg0.N
    = pflow (S := S25000x128) (V c main_v49) (V c main_v50) (V c main_v51) (V c main_v52) (V c main_v53) (V c main_v54) :=
  (dat0 V c).arrAt_eq_of_cover 6 _ (fun t _ => pflow_flushed V c t) pflow_cover

/-! ## Output window 7: the reactive flow vv · (g · sin δ − b · cos δ) -/

/-- the reactive flow vv · (g · sin δ − b · cos δ), entry by entry, as one function of the six operand arrays. -/
abbrev qflow {S : Shape} (vf vt sa da g b : S.Idx → Elt F .f32) : S.Idx → Elt F .f32 := fun i =>
  FloatOps.mulf (FloatOps.mulf (vf i) (vt i)) (FloatOps.subf (FloatOps.mulf (g i) (FloatOps.sin (FloatOps.subf (sa i) (da i)))) (FloatOps.mulf (b i) (FloatOps.cos (FloatOps.subf (sa i) (da i)))))

/-- The body's stored value is the reactive flow of its six loaded blocks (its same-shape casts are identities). -/
theorem qflow_payload (x2 x3 x0 x1 x4 x5 : Vec F S1000x128 .f32) :
    k0_pay8 x2 x3 x0 x1 x4 x5 = qflow x0 x1 x2 x3 x4 x5 := by
  unfold k0_pay8 k0_pay5 k0_pay6 k0_pay4 k0_pay2 k0_pay3 k0_pay1
  simp only [shapeCast_self]
  rfl

/-- Over the 25 grid points: every operand's block index is the output's, on both axes, and the output's stays in
    0 … 24 by 0. -/
theorem qflow_index : ∀ t : Fin cfg0.N, win0_0.index t (0 : Fin 2) = win0_7.index t (0 : Fin 2)
    ∧ win0_0.index t (1 : Fin 2) = win0_7.index t (1 : Fin 2)
    ∧ win0_1.index t (0 : Fin 2) = win0_7.index t (0 : Fin 2)
    ∧ win0_1.index t (1 : Fin 2) = win0_7.index t (1 : Fin 2)
    ∧ win0_2.index t (0 : Fin 2) = win0_7.index t (0 : Fin 2)
    ∧ win0_2.index t (1 : Fin 2) = win0_7.index t (1 : Fin 2)
    ∧ win0_3.index t (0 : Fin 2) = win0_7.index t (0 : Fin 2)
    ∧ win0_3.index t (1 : Fin 2) = win0_7.index t (1 : Fin 2)
    ∧ win0_4.index t (0 : Fin 2) = win0_7.index t (0 : Fin 2)
    ∧ win0_4.index t (1 : Fin 2) = win0_7.index t (1 : Fin 2)
    ∧ win0_5.index t (0 : Fin 2) = win0_7.index t (0 : Fin 2)
    ∧ win0_5.index t (1 : Fin 2) = win0_7.index t (1 : Fin 2)
    ∧ win0_7.index t (0 : Fin 2) ≤ 24 ∧ win0_7.index t (1 : Fin 2) ≤ 0 :=
  (by decide +kernel : ∀ t : Fin grid0.N, _)

/-- Every one of the 25 row blocks is some grid point's. -/
theorem qflow_onto : ∀ (q0 : Fin 25) (q1 : Fin 1), ∃ t : Fin cfg0.N, win0_7.index t = ![q0.val, q1.val] :=
  (by decide +kernel : ∀ (q0 : Fin 25) (q1 : Fin 1), ∃ t : Fin grid0.N, win0_7.index t = ![q0.val, q1.val])

/-- Operand 0's block at a point sits at the rows and lanes of output window 7's block at that point. -/
theorem qflow_emb0 (t : Fin cfg0.N) (j : ((cfg0.win 7).xblock (grid0.coords t)).Idx) :
    ((cfg0.win 0).blk t).view.emb j = ((cfg0.win 7).blk t).view.emb j := by
  obtain ⟨e00, e01, e10, e11, e20, e21, e30, e31, e40, e41, e50, e51, -, -⟩ := qflow_index t
  funext a; apply Fin.ext
  match a with
  | ⟨0, _⟩ => show win0_0.index t (0 : Fin 2) * 1000 + 1 * (j 0).val = win0_7.index t (0 : Fin 2) * 1000 + 1 * (j 0).val; omega
  | ⟨1, _⟩ => show win0_0.index t (1 : Fin 2) * 128 + 1 * (j 1).val = win0_7.index t (1 : Fin 2) * 128 + 1 * (j 1).val; omega

/-- Operand 1's block at a point sits at the rows and lanes of output window 7's block at that point. -/
theorem qflow_emb1 (t : Fin cfg0.N) (j : ((cfg0.win 7).xblock (grid0.coords t)).Idx) :
    ((cfg0.win 1).blk t).view.emb j = ((cfg0.win 7).blk t).view.emb j := by
  obtain ⟨e00, e01, e10, e11, e20, e21, e30, e31, e40, e41, e50, e51, -, -⟩ := qflow_index t
  funext a; apply Fin.ext
  match a with
  | ⟨0, _⟩ => show win0_1.index t (0 : Fin 2) * 1000 + 1 * (j 0).val = win0_7.index t (0 : Fin 2) * 1000 + 1 * (j 0).val; omega
  | ⟨1, _⟩ => show win0_1.index t (1 : Fin 2) * 128 + 1 * (j 1).val = win0_7.index t (1 : Fin 2) * 128 + 1 * (j 1).val; omega

/-- Operand 2's block at a point sits at the rows and lanes of output window 7's block at that point. -/
theorem qflow_emb2 (t : Fin cfg0.N) (j : ((cfg0.win 7).xblock (grid0.coords t)).Idx) :
    ((cfg0.win 2).blk t).view.emb j = ((cfg0.win 7).blk t).view.emb j := by
  obtain ⟨e00, e01, e10, e11, e20, e21, e30, e31, e40, e41, e50, e51, -, -⟩ := qflow_index t
  funext a; apply Fin.ext
  match a with
  | ⟨0, _⟩ => show win0_2.index t (0 : Fin 2) * 1000 + 1 * (j 0).val = win0_7.index t (0 : Fin 2) * 1000 + 1 * (j 0).val; omega
  | ⟨1, _⟩ => show win0_2.index t (1 : Fin 2) * 128 + 1 * (j 1).val = win0_7.index t (1 : Fin 2) * 128 + 1 * (j 1).val; omega

/-- Operand 3's block at a point sits at the rows and lanes of output window 7's block at that point. -/
theorem qflow_emb3 (t : Fin cfg0.N) (j : ((cfg0.win 7).xblock (grid0.coords t)).Idx) :
    ((cfg0.win 3).blk t).view.emb j = ((cfg0.win 7).blk t).view.emb j := by
  obtain ⟨e00, e01, e10, e11, e20, e21, e30, e31, e40, e41, e50, e51, -, -⟩ := qflow_index t
  funext a; apply Fin.ext
  match a with
  | ⟨0, _⟩ => show win0_3.index t (0 : Fin 2) * 1000 + 1 * (j 0).val = win0_7.index t (0 : Fin 2) * 1000 + 1 * (j 0).val; omega
  | ⟨1, _⟩ => show win0_3.index t (1 : Fin 2) * 128 + 1 * (j 1).val = win0_7.index t (1 : Fin 2) * 128 + 1 * (j 1).val; omega

/-- Operand 4's block at a point sits at the rows and lanes of output window 7's block at that point. -/
theorem qflow_emb4 (t : Fin cfg0.N) (j : ((cfg0.win 7).xblock (grid0.coords t)).Idx) :
    ((cfg0.win 4).blk t).view.emb j = ((cfg0.win 7).blk t).view.emb j := by
  obtain ⟨e00, e01, e10, e11, e20, e21, e30, e31, e40, e41, e50, e51, -, -⟩ := qflow_index t
  funext a; apply Fin.ext
  match a with
  | ⟨0, _⟩ => show win0_4.index t (0 : Fin 2) * 1000 + 1 * (j 0).val = win0_7.index t (0 : Fin 2) * 1000 + 1 * (j 0).val; omega
  | ⟨1, _⟩ => show win0_4.index t (1 : Fin 2) * 128 + 1 * (j 1).val = win0_7.index t (1 : Fin 2) * 128 + 1 * (j 1).val; omega

/-- Operand 5's block at a point sits at the rows and lanes of output window 7's block at that point. -/
theorem qflow_emb5 (t : Fin cfg0.N) (j : ((cfg0.win 7).xblock (grid0.coords t)).Idx) :
    ((cfg0.win 5).blk t).view.emb j = ((cfg0.win 7).blk t).view.emb j := by
  obtain ⟨e00, e01, e10, e11, e20, e21, e30, e31, e40, e41, e50, e51, -, -⟩ := qflow_index t
  funext a; apply Fin.ext
  match a with
  | ⟨0, _⟩ => show win0_5.index t (0 : Fin 2) * 1000 + 1 * (j 0).val = win0_7.index t (0 : Fin 2) * 1000 + 1 * (j 0).val; omega
  | ⟨1, _⟩ => show win0_5.index t (1 : Fin 2) * 128 + 1 * (j 1).val = win0_7.index t (1 : Fin 2) * 128 + 1 * (j 1).val; omega

set_option maxHeartbeats 800000 in
/-- What grid point `t` writes back is block `t` of `qflow` of the operand arrays as the region finds them: the six
    operand blocks sit at the output block's own rows and lanes. -/
theorem qflow_flushed (c : Dev nD) (t : Fin cfg0.N) :
    (dat0 V c).flushed 7 t = ((cfg0.win 7).blk t).view.read (Elt F)
      (qflow (S := S25000x128) (V c main_v49) (V c main_v50) (V c main_v51) (V c main_v52) (V c main_v53) (V c main_v54)) := by
  show (cfg0.win 7).cut (grid0.coords t) ((dat0 V c).after 7 t) = _
  rw [after0_7]
  unfold out0_7
  rw [View.canon_unit_zero origin_zero]
  simp only [View.ld_unit_zero (S := S1000x128) origin_zero]
  rw [qflow_payload]
  funext j
  show FloatOps.mulf (FloatOps.mulf (V c main_v49 (((cfg0.win 0).blk t).view.emb j)) (V c main_v50 (((cfg0.win 1).blk t).view.emb j))) (FloatOps.subf (FloatOps.mulf (V c main_v53 (((cfg0.win 4).blk t).view.emb j)) (FloatOps.sin (FloatOps.subf (V c main_v51 (((cfg0.win 2).blk t).view.emb j)) (V c main_v52 (((cfg0.win 3).blk t).view.emb j))))) (FloatOps.mulf (V c main_v54 (((cfg0.win 5).blk t).view.emb j)) (FloatOps.cos (FloatOps.subf (V c main_v51 (((cfg0.win 2).blk t).view.emb j)) (V c main_v52 (((cfg0.win 3).blk t).view.emb j))))))
    = FloatOps.mulf (FloatOps.mulf (V c main_v49 (((cfg0.win 7).blk t).view.emb j)) (V c main_v50 (((cfg0.win 7).blk t).view.emb j))) (FloatOps.subf (FloatOps.mulf (V c main_v53 (((cfg0.win 7).blk t).view.emb j)) (FloatOps.sin (FloatOps.subf (V c main_v51 (((cfg0.win 7).blk t).view.emb j)) (V c main_v52 (((cfg0.win 7).blk t).view.emb j))))) (FloatOps.mulf (V c main_v54 (((cfg0.win 7).blk t).view.emb j)) (FloatOps.cos (FloatOps.subf (V c main_v51 (((cfg0.win 7).blk t).view.emb j)) (V c main_v52 (((cfg0.win 7).blk t).view.emb j))))))
  have key : ∀ (i0 i1 i2 i3 i4 i5 i6 : S25000x128.Idx), i0 = i6 → i1 = i6 → i2 = i6 → i3 = i6 → i4 = i6 → i5 = i6 →
      FloatOps.mulf (FloatOps.mulf (V c main_v49 i0) (V c main_v50 i1)) (FloatOps.subf (FloatOps.mulf (V c main_v53 i4) (FloatOps.sin (FloatOps.subf (V c main_v51 i2) (V c main_v52 i3)))) (FloatOps.mulf (V c main_v54 i5) (FloatOps.cos (FloatOps.subf (V c main_v51 i2) (V c main_v52 i3)))))
        = FloatOps.mulf (FloatOps.mulf (V c main_v49 i6) (V c main_v50 i6)) (FloatOps.subf (FloatOps.mulf (V c main_v53 i6) (FloatOps.sin (FloatOps.subf (V c main_v51 i6) (V c main_v52 i6)))) (FloatOps.mulf (V c main_v54 i6) (FloatOps.cos (FloatOps.subf (V c main_v51 i6) (V c main_v52 i6))))) := by
    intro i0 i1 i2 i3 i4 i5 i6 g0 g1 g2 g3 g4 g5
    rw [g0, g1, g2, g3, g4, g5]
  exact key _ _ _ _ _ _ _ (qflow_emb0 t j) (qflow_emb1 t j) (qflow_emb2 t j) (qflow_emb3 t j) (qflow_emb4 t j) (qflow_emb5 t j)

/-- An index of the array lies in point `t`'s block iff each coordinate lies in the block's range on its axis. -/
theorem qflow_mem_blk (t : Fin cfg0.N) (i : S25000x128.Idx) :
    i ∈ ((cfg0.win 7).blk t).view.set ↔ ∀ a : Fin 2, win0_7.index t a * S1000x128.size a ≤ (i a).val ∧ (i a).val < win0_7.index t a * S1000x128.size a + S1000x128.size a := by
  show i ∈ ((View.whole main_v55_1).slice (win0_7.rect t)).set ↔ _
  rw [View.set_slice_whole, Rect.mem_set_unit]
  exact Iff.rfl

/-- Every index of the array lies in the block of the point that owns its row block. -/
theorem qflow_cover (i : S25000x128.Idx) :
    ∃ t : Fin cfg0.N, (cfg0.win 7).flush t = true ∧ i ∈ ((cfg0.win 7).blk t).view.set := by
  have hi0 : (i 0).val < 25000 := (i 0).isLt
  have hi1 : (i 1).val < 128 := (i 1).isLt
  obtain ⟨t, ht⟩ := qflow_onto ⟨(i 0).val / 1000, by omega⟩ ⟨(i 1).val / 128, by omega⟩
  have q0 : win0_7.index t (0 : Fin 2) = (i 0).val / 1000 := congrFun ht 0
  have q1 : win0_7.index t (1 : Fin 2) = (i 1).val / 128 := congrFun ht 1
  refine ⟨t, flush0_7 t, ?_⟩
  rw [qflow_mem_blk]
  intro a
  match a with
  | ⟨0, _⟩ => show win0_7.index t (0 : Fin 2) * 1000 ≤ (i 0).val ∧ (i 0).val < win0_7.index t (0 : Fin 2) * 1000 + 1000; omega
  | ⟨1, _⟩ => show win0_7.index t (1 : Fin 2) * 128 ≤ (i 1).val ∧ (i 1).val < win0_7.index t (1 : Fin 2) * 128 + 128; omega

/-- The array after the region: `qflow` of the operand arrays, everywhere. -/
theorem qflow_final (c : Dev nD) : (dat0 V c).arrAt 7 cfg0.N
    = qflow (S := S25000x128) (V c main_v49) (V c main_v50) (V c main_v51) (V c main_v52) (V c main_v53) (V c main_v54) :=
  (dat0 V c).arrAt_eq_of_cover 7 _ (fun t _ => qflow_flushed V c t) qflow_cover

end Cert.KernelIdeal.EdgeFlow

end
-- ==== Proof.LossSum.lean ====
/-
  The arithmetic of the node stage's reduction, with no program in sight.

  The kernel lays each length-100000 node array out as 784 rows of 128 lanes, the last 352 places filled with zeros,
  sums a row's squares over the lanes and then the rows' sums over the rows; the reference sums the 100000 squares in
  one go. On the extended reals addition is commutative and associative with no side condition, so regrouping a
  finite sum and dropping zero terms are free: the two totals are equal whatever the entries are, infinite ones
  included.
-/
import Idealize.ShloMosaic.PureOps.Ideal
import Idealize.ShloMosaic.Lib.ValueIdx
import Mathlib.Algebra.BigOperators.Fin
import Mathlib.Logic.Equiv.Fin.Basic

noncomputable section

open scoped BigOperators

namespace Cert.LossSum

open Idealize.ShloMosaic Idealize.ShloMosaic.ValueIdx

/-- A sum over 784 rows of 128 lanes of a function of the flat position `row · 128 + lane` that vanishes from position
    100000 on is the sum over the first 100000 positions. -/
theorem rows_lanes_sum (f : ℕ → EReal) (hz : ∀ n, 100000 ≤ n → f n = 0) :
    ∑ r : Fin 784, ∑ l : Fin 128, f (r.val * 128 + l.val) = ∑ i : Fin 100000, f i.val := by
  have hflat : ∑ r : Fin 784, ∑ l : Fin 128, f (r.val * 128 + l.val) = ∑ k : Fin (784 * 128), f k.val := by
    rw [← Fintype.sum_prod_type' (f := fun (r : Fin 784) (l : Fin 128) => f (r.val * 128 + l.val)),
      ← Equiv.sum_comp (finProdFinEquiv (m := 784) (n := 128)) (fun k => f k.val)]
    refine Finset.sum_congr rfl fun x _ => congrArg f ?_
    rw [finProdFinEquiv_apply_val]
    omega
  rw [hflat, Fin.sum_univ_eq_sum_range f (784 * 128), Fin.sum_univ_eq_sum_range f 100000]
  symm
  refine Finset.sum_subset (fun x hx => ?_) (fun x _ hx => hz x ?_)
  · rw [Finset.mem_range] at hx ⊢; omega
  · rw [Finset.mem_range] at hx; omega

/-- Entry `n` of a length-100000 array continued by zeros. -/
def ext0 (x : (⟨1, ![100000]⟩ : Shape).Idx → EReal) (n : ℕ) : EReal :=
  if h : n < 100000 then x (ix1 ⟨n, h⟩) else 0

theorem ext0_lt (x : (⟨1, ![100000]⟩ : Shape).Idx → EReal) (i : Fin 100000) : ext0 x i.val = x (ix1 i) := by
  unfold ext0; rw [dif_pos i.isLt]

theorem ext0_ge (x : (⟨1, ![100000]⟩ : Shape).Idx → EReal) {n : ℕ} (h : 100000 ≤ n) : ext0 x n = 0 := by
  unfold ext0; rw [dif_neg (by omega)]

/-- The squared imbalance `(gen − dem − flo)²` at flat position `n` of three arrays continued by zeros: zero past the
    arrays' end. -/
def sq0 (gen dem flo : (⟨1, ![100000]⟩ : Shape).Idx → EReal) (n : ℕ) : EReal :=
  (ext0 gen n - ext0 dem n - ext0 flo n) * (ext0 gen n - ext0 dem n - ext0 flo n)

theorem sq0_ge (gen dem flo : (⟨1, ![100000]⟩ : Shape).Idx → EReal) {n : ℕ} (h : 100000 ≤ n) : sq0 gen dem flo n = 0 := by
  unfold sq0; rw [ext0_ge gen h, ext0_ge dem h, ext0_ge flo h]; simp

theorem sq0_lt (gen dem flo : (⟨1, ![100000]⟩ : Shape).Idx → EReal) (i : Fin 100000) :
    sq0 gen dem flo i.val = (gen (ix1 i) - dem (ix1 i) - flo (ix1 i)) * (gen (ix1 i) - dem (ix1 i) - flo (ix1 i)) := by
  unfold sq0; rw [ext0_lt, ext0_lt, ext0_lt]

/-- The lane sums summed over the rows are the one sum over the 100000 nodes. -/
theorem sq_total (gen dem flo : (⟨1, ![100000]⟩ : Shape).Idx → EReal) :
    ∑ r : Fin 784, ∑ l : Fin 128, sq0 gen dem flo (r.val * 128 + l.val)
      = ∑ i : Fin 100000, (gen (ix1 i) - dem (ix1 i) - flo (ix1 i)) * (gen (ix1 i) - dem (ix1 i) - flo (ix1 i)) := by
  rw [rows_lanes_sum (sq0 gen dem flo) fun n h => sq0_ge gen dem flo h]
  exact Finset.sum_congr rfl fun i _ => sq0_lt gen dem flo i

end Cert.LossSum

end
-- ==== Proof.NodeValue.lean ====
/-
  The node stage's stored value at the exact instance, index by index.

  The body subtracts demand and computed flow from generation, squares, sums each row's 128 lanes, sums the 784 row
  sums, divides by 100000, and adds the active and the reactive quotients. Its six operands are length-100000 arrays
  continued by zeros in rows of 128 (entry (r, l) is flat position r · 128 + l), so by the arithmetic of the padded
  sum the value is: the sum of the 100000 squared active imbalances over 100000 plus the same for the reactive ones.
-/
import proofs.«139891_j89936615178647_1_alg».proof.Proof.Gen.KernelIdeal.Skeleton
import proofs.«139891_j89936615178647_1_alg».proof.Proof.LossSum
import Idealize.ShloMosaic.Lib.Pipeline.Value
import Idealize.ShloMosaic.Lib.ValueIdx
import Idealize.ShloMosaic.PureOps.Ideal.Laws

noncomputable section

open scoped BigOperators

namespace Cert.KernelIdeal.NodeValue

open Cert.KernelIdeal Cert.KernelIdeal.Gen Idealize.ShloMosaic Idealize.ShloMosaic.ValueIdx Cert.LossSum

/-- A length-100000 array continued by the padding value `z`, in rows of 128. -/
abbrev rows (z : FVec Ideal S_ .f32) (x : FVec Ideal S100000 .f32) : FVec Ideal S784x128 .f32 :=
  shapeCast S784x128 (pad S100352 ![0] ![352] ![0] x z pads_S100000_S100352_03520 h_S_) shapeCasts_S100352_S784x128

/-- Entry (r, l) of the rows is flat position r · 128 + l of the array continued by zeros, when the padding value is 0. -/
theorem rows_apply (z : FVec Ideal S_ .f32) (hz : z ix0 = 0) (x : FVec Ideal S100000 .f32) (r : Fin 784) (l : Fin 128) :
    rows z x (ix2 r l) = ext0 x (r.val * 128 + l.val) := by
  have hlt : r.val * 128 + l.val < 100352 := by omega
  unfold rows
  rw [shapeCast_apply _ _ (ix2 r l) (ix1 ⟨r.val * 128 + l.val, hlt⟩) (by rw [Shape.rowMajor_val_one, Shape.rowMajor_val_two]; rfl)]
  unfold pad ext0
  by_cases h : r.val * 128 + l.val < 100000
  · rw [dif_pos h]
    split
    next hin =>
      refine congrArg x (funext fun a => Fin.ext ?_)
      match a with
      | ⟨0, _⟩ => show (r.val * 128 + l.val - 0) / (0 + 1) = r.val * 128 + l.val; omega
    next hin =>
      refine absurd (fun a => ?_) hin
      match a with
      | ⟨0, _⟩ =>
        exact ⟨Nat.zero_le _, (by show (r.val * 128 + l.val - 0) % (0 + 1) = 0; omega),
          (by show (r.val * 128 + l.val - 0) / (0 + 1) < 100000; omega)⟩
  · rw [dif_neg h]
    split
    next hin =>
      have h3 : (r.val * 128 + l.val - 0) / (0 + 1) < 100000 := (hin ⟨0, Nat.zero_lt_one⟩).2.2
      omega
    next hin => rw [eq_ix0 (Shape.Idx.first h_S_)]; exact hz

/-- The padding value @main uses, the integer 0 converted, is the extended real 0. -/
theorem pad_value : (sitofp (F := Ideal) .f32 (constantI S_ 32 0#32) : FVec Ideal S_ .f32) ix0 = 0 := by
  show ((((0#32 : BitVec 32).toInt : ℤ) : ℝ) : EReal) = 0
  simp

/-- A row's lane sum: the sum over the 128 lanes of that row's entries. -/
theorem lane_sum (v : FVec Ideal S784x128 .f32) (hφ : FKind.Formats .f32) (hacc : (0#32 : BitVec 32) = FKind.add.neutral .f32 hφ)
    (k : Fin 784) :
    multiReduction .add [1] S784 v 0#32 reduces_S784x128_S784 hφ hacc (ix1 k) = ∑ l : Fin 128, v (ix2 k l) := by
  rw [Ideal.multiReduction_add_single]
  refine Finset.sum_congr rfl fun l _ => congrArg v (funext fun a => ?_)
  match a with
  | ⟨0, _⟩ => rfl
  | ⟨1, _⟩ => rfl

/-- The total of the row sums, through the two recasts around it: the sum over the 784 rows. -/
theorem row_total (w : FVec Ideal S784 .f32) (hφ : FKind.Formats .f32) (hacc : (0#32 : BitVec 32) = FKind.add.neutral .f32 hφ) :
    shapeCast S1x1 (multiReduction .add [0] S1 (shapeCast S784x1 w shapeCasts_S784_S784x1) 0#32 reduces_S784x1_S1 hφ hacc) shapeCasts_S1_S1x1 (ix2 0 0)
      = ∑ k : Fin 784, w (ix1 k) := by
  rw [shapeCast_apply _ shapeCasts_S1_S1x1 (ix2 0 0) (ix1 0) (by rw [Shape.rowMajor_val_one, Shape.rowMajor_val_two]; rfl),
    Ideal.multiReduction_add_single]
  refine Finset.sum_congr rfl fun k _ => ?_
  rw [shapeCast_apply _ shapeCasts_S784_S784x1 _ (ix1 k) (by
    rw [Shape.rowMajor_val_one, Shape.rowMajor_val_two]
    show k.val = k.val * 1 + 0
    omega)]

/-- One half of the stored value before the division: lane sums, then their total, of the squared imbalance of three
    arrays continued by zeros in rows of 128, is the sum of the 100000 squared imbalances. -/
theorem sq_sum (z : FVec Ideal S_ .f32) (hz : z ix0 = 0) (gen dem flo : FVec Ideal S100000 .f32)
    (hφ : FKind.Formats .f32) (hacc : (0#32 : BitVec 32) = FKind.add.neutral .f32 hφ) :
    shapeCast S1x1 (multiReduction .add [0] S1 (shapeCast S784x1 (multiReduction .add [1] S784
        (mulf (subf (subf (rows z gen) (rows z dem)) (rows z flo)) (subf (subf (rows z gen) (rows z dem)) (rows z flo)))
        0#32 reduces_S784x128_S784 hφ hacc) shapeCasts_S784_S784x1) 0#32 reduces_S784x1_S1 hφ hacc) shapeCasts_S1_S1x1 (ix2 0 0)
      = ∑ i : Fin 100000, (gen (ix1 i) - dem (ix1 i) - flo (ix1 i)) * (gen (ix1 i) - dem (ix1 i) - flo (ix1 i)) := by
  rw [row_total]
  refine (Finset.sum_congr rfl fun k _ => (lane_sum _ hφ hacc k).trans (Finset.sum_congr rfl fun l _ => ?_)).trans
    (sq_total gen dem flo)
  show (rows z gen (ix2 k l) - rows z dem (ix2 k l) - rows z flo (ix2 k l))
      * (rows z gen (ix2 k l) - rows z dem (ix2 k l) - rows z flo (ix2 k l)) = sq0 gen dem flo (k.val * 128 + l.val)
  rw [rows_apply z hz, rows_apply z hz, rows_apply z hz]
  rfl

/-- The node stage's stored value at its one index: the sum of the squared active imbalances over 100000 plus the sum of
    the squared reactive ones over 100000. -/
theorem stored_apply (z : FVec Ideal S_ .f32) (hz : z ix0 = 0) (pg pd pc qg qd qc : FVec Ideal S100000 .f32) :
    k1_pay1 (F := Ideal) (rows z pg) (rows z pd) (rows z pc) (rows z qg) (rows z qd) (rows z qc) (ix2 0 0)
      = Ideal.div (∑ i : Fin 100000, (pg (ix1 i) - pd (ix1 i) - pc (ix1 i)) * (pg (ix1 i) - pd (ix1 i) - pc (ix1 i))) (Ideal.ofBits .f32 0x47C35000#32)
        + Ideal.div (∑ i : Fin 100000, (qg (ix1 i) - qd (ix1 i) - qc (ix1 i)) * (qg (ix1 i) - qd (ix1 i) - qc (ix1 i))) (Ideal.ofBits .f32 0x47C35000#32) := by
  unfold k1_pay1
  simp only [shapeCast_self]
  rw [addf_apply, divf_apply, divf_apply, broadcast_apply]
  exact congrArg₂ (· + ·) (congrArg (fun s => Ideal.div s _) (sq_sum z hz pg pd pc _ _))
    (congrArg (fun s => Ideal.div s _) (sq_sum z hz qg qd qc _ _))

end Cert.KernelIdeal.NodeValue

end
-- ==== Proof.Tails.lean ====
/-
  The two programs after their common beginning, as functions of the same eleven arrays, and their equality.

  Both programs first compute, by the same host operations, four gathered per-edge arrays (the two end voltages and the
  two end angles), the two per-edge admittance columns, the edges' source nodes, and four per-node columns (generated
  and demanded active and reactive power). From there the kernel program recasts the six per-edge arrays to rows of
  128, computes the two flows in its first region, recasts them flat, sums each over the edges of a source node
  (a scatter-add into zeros), continues the six per-node arrays by zeros to rows of 128 and reduces them in its second
  region; the reference computes the flows on the flat arrays, the same per-node sums, and two means of squares.

  At the exact instance the two are one function: the flows are pointwise, so recasting the operands and recasting the
  result back changes nothing; the kernel's and the host's cosine and sine are one function there; the per-node sums are
  then the same operation of equal operands; and the rows-of-128 reduction of arrays continued by zeros is the plain sum
  over the 100000 nodes.
-/
import proofs.«139891_j89936615178647_1_alg».proof.Proof.EdgeFlow
import proofs.«139891_j89936615178647_1_alg».proof.Proof.NodeValue
import proofs.«139891_j89936615178647_1_alg».proof.Proof.Gen.ReferenceIdeal
import Idealize.ShloMosaic.Lib.IdealHost
import Idealize.ShloMosaic.Lib.ValueIdxRank1
import Idealize.ShloMosaic.Lib.Pipeline.Value

noncomputable section

open scoped BigOperators

namespace Cert.Tails

open Idealize.ShloMosaic Idealize.ShloMosaic.ValueIdx

/-! ## The kernel program's tail -/

section Kernel

open Cert.KernelIdeal Cert.KernelIdeal.Gen

variable {F : FTy → Type} [FloatOps F]

/-- The padding value @main uses: the integer 0 converted. -/
abbrev zeroPad : FVec F S_ .f32 := sitofp (F := F) .f32 (constantI S_ 32 0#32)

/-- A length-100000 array continued by 352 copies of the padding value, in rows of 128. -/
abbrev nodeRows (x : FVec F S100000 .f32) : FVec F S784x128 .f32 :=
  shapeCast S784x128 (pad S100352 ![0] ![352] ![0] x (zeroPad (F := F)) pads_S100000_S100352_03520 h_S_) shapeCasts_S100352_S784x128

/-- A per-edge array in rows of 128. -/
abbrev edgeRows (x : FVec F S3200000 .f32) : FVec F S25000x128 .f32 := shapeCast S25000x128 x shapeCasts_S3200000_S25000x128

/-- The per-node sums of a per-edge array given in rows of 128: recast flat, then added into zeros at each edge's
    source node. -/
abbrev nodeSumK (src : IVec S3200000 32) (u : FVec F S25000x128 .f32) : FVec F S100000 .f32 :=
  Host.scatterAdd scatter_S100000_S3200000x1_S3200000_n_0_0_1 (broadcastInDim S100000 ![] bcast_S_S100000 (constant S_ .f32 0x00000000#32))
    (broadcastInDim S3200000x1 ![0] bcast_S3200000_S3200000x1_0 src) (shapeCast S3200000 u shapeCasts_S25000x128_S3200000)

/-- The kernel program's result from the eleven common arrays. -/
def kernelTail (vf vt ts td g b : FVec F S3200000 .f32) (src : IVec S3200000 32) (pg qg pd qd : FVec F S100000 .f32) :
    FVec F S_ .f32 :=
  shapeCast S_ (k1_pay1 (nodeRows pg) (nodeRows pd)
      (nodeRows (nodeSumK src (EdgeFlow.pflow (edgeRows vf) (edgeRows vt) (edgeRows ts) (edgeRows td) (edgeRows g) (edgeRows b))))
      (nodeRows qg) (nodeRows qd)
      (nodeRows (nodeSumK src (EdgeFlow.qflow (edgeRows vf) (edgeRows vt) (edgeRows ts) (edgeRows td) (edgeRows g) (edgeRows b)))))
    shapeCasts_S1x1_S_

/-- The scalar recast of a [1, 1] array reads its one entry. -/
theorem scalar_apply (x : FVec Ideal S1x1 .f32) : shapeCast S_ x shapeCasts_S1x1_S_ ix0 = x (ix2 0 0) := by
  refine shapeCast_apply x _ ix0 (ix2 0 0) ?_
  have h1 : S_.numel = 1 := by simp [Shape.numel]
  have h2 : (S_.rowMajor ix0).val < 1 := lt_of_lt_of_eq (S_.rowMajor ix0).isLt h1
  rw [Shape.rowMajor_val_two]
  show 0 * 1 + 0 = (S_.rowMajor ix0).val
  omega

end Kernel

/-! ## The reference's tail -/

section Reference

open Cert.ReferenceIdeal Cert.ReferenceIdeal.Gen

variable {F : FTy → Type} [FloatOps F]

/-- The active flow on flat arrays, in the host's operations. -/
abbrev pflowR (vf vt ts td g b : FVec F S3200000 .f32) : FVec F S3200000 .f32 :=
  mulf (mulf vf vt) (addf (mulf g (Host.cos (subf ts td))) (mulf b (Host.sin (subf ts td))))

/-- The reactive flow on flat arrays, in the host's operations. -/
abbrev qflowR (vf vt ts td g b : FVec F S3200000 .f32) : FVec F S3200000 .f32 :=
  mulf (mulf vf vt) (subf (mulf g (Host.sin (subf ts td))) (mulf b (Host.cos (subf ts td))))

/-- The per-node sums of a flat per-edge array: added into zeros at each edge's source node. -/
abbrev nodeSumR (src : IVec S3200000 32) (u : FVec F S3200000 .f32) : FVec F S100000 .f32 :=
  Host.scatterAdd scatter_S100000_S3200000x1_S3200000_n_0_0_1 (broadcastInDim S100000 ![] bcast_S_S100000 (constant S_ .f32 0x00000000#32))
    (broadcastInDim S3200000x1 ![0] bcast_S3200000_S3200000x1_0 src) u

/-- The mean over the 100000 nodes of the squared imbalance `gen − dem − flo`, in the host's operations. -/
abbrev meanSq (gen dem flo : FVec F S100000 .f32) : FVec F S_ .f32 :=
  Host.divf (Host.reduceAdd (mulf (subf (subf gen dem) flo) (subf (subf gen dem) flo)) (constant S_ .f32 0x00000000#32) reducesTo_S100000_S_d0 h_S_)
    (constant S_ .f32 0x47C35000#32)

/-- The reference's result from the eleven common arrays. -/
def refTail (vf vt ts td g b : FVec F S3200000 .f32) (src : IVec S3200000 32) (pg qg pd qd : FVec F S100000 .f32) :
    FVec F S_ .f32 :=
  addf (meanSq pg pd (nodeSumR src (pflowR vf vt ts td g b))) (meanSq qg qd (nodeSumR src (qflowR vf vt ts td g b)))

/-- The host's mean of squares at the exact instance: the sum of the 100000 squared imbalances over 100000. -/
theorem meanSq_apply (gen dem flo : FVec Ideal S100000 .f32) :
    meanSq gen dem flo ix0
      = Ideal.div (∑ i : Fin 100000, (gen (ix1 i) - dem (ix1 i) - flo (ix1 i)) * (gen (ix1 i) - dem (ix1 i) - flo (ix1 i)))
          (Ideal.ofBits .f32 0x47C35000#32) := by
  unfold meanSq
  rw [hostDivf_apply, hostReduceAdd_apply, Ideal.hostReduceAdd_total _ (fun b => b.elim0), constant_apply,
    constant_apply, Ideal.ofBits_zero_f32, zero_add, ← Equiv.sum_comp (idxEquiv1 (n := 100000)).symm]
  rfl

end Reference

/-! ## The two tails are one function at the exact instance -/

section Equal

open Cert.KernelIdeal Cert.KernelIdeal.Gen

/-- The active flow of operands in rows of 128, recast flat, is the host's active flow of the flat operands. -/
theorem pflow_flat (vf vt ts td g b : FVec Ideal S3200000 .f32) :
    shapeCast S3200000 (EdgeFlow.pflow (S := S25000x128) (edgeRows vf) (edgeRows vt) (edgeRows ts) (edgeRows td) (edgeRows g) (edgeRows b))
        shapeCasts_S25000x128_S3200000 = pflowR vf vt ts td g b := by
  have h : (EdgeFlow.pflow (S := S25000x128) (edgeRows vf) (edgeRows vt) (edgeRows ts) (edgeRows td) (edgeRows g) (edgeRows b)
      : FVec Ideal S25000x128 .f32) = shapeCast S25000x128 (pflowR vf vt ts td g b) shapeCasts_S3200000_S25000x128 := rfl
  rw [h, shapeCast_shapeCast]

/-- The reactive flow likewise. -/
theorem qflow_flat (vf vt ts td g b : FVec Ideal S3200000 .f32) :
    shapeCast S3200000 (EdgeFlow.qflow (S := S25000x128) (edgeRows vf) (edgeRows vt) (edgeRows ts) (edgeRows td) (edgeRows g) (edgeRows b))
        shapeCasts_S25000x128_S3200000 = qflowR vf vt ts td g b := by
  have h : (EdgeFlow.qflow (S := S25000x128) (edgeRows vf) (edgeRows vt) (edgeRows ts) (edgeRows td) (edgeRows g) (edgeRows b)
      : FVec Ideal S25000x128 .f32) = shapeCast S25000x128 (qflowR vf vt ts td g b) shapeCasts_S3200000_S25000x128 := rfl
  rw [h, shapeCast_shapeCast]

/-- So the kernel program's per-node active sums are the reference's. -/
theorem nodeSum_p (vf vt ts td g b : FVec Ideal S3200000 .f32) (src : IVec S3200000 32) :
    nodeSumK src (EdgeFlow.pflow (S := S25000x128) (edgeRows vf) (edgeRows vt) (edgeRows ts) (edgeRows td) (edgeRows g) (edgeRows b))
      = nodeSumR src (pflowR vf vt ts td g b) := by
  unfold nodeSumK
  rw [pflow_flat]
  rfl

/-- And its per-node reactive sums. -/
theorem nodeSum_q (vf vt ts td g b : FVec Ideal S3200000 .f32) (src : IVec S3200000 32) :
    nodeSumK src (EdgeFlow.qflow (S := S25000x128) (edgeRows vf) (edgeRows vt) (edgeRows ts) (edgeRows td) (edgeRows g) (edgeRows b))
      = nodeSumR src (qflowR vf vt ts td g b) := by
  unfold nodeSumK
  rw [qflow_flat]
  rfl

/-- At the exact instance the kernel program's tail is the reference's. -/
theorem tails_eq (vf vt ts td g b : FVec Ideal S3200000 .f32) (src : IVec S3200000 32) (pg qg pd qd : FVec Ideal S100000 .f32) :
    kernelTail vf vt ts td g b src pg qg pd qd = refTail vf vt ts td g b src pg qg pd qd := by
  funext j
  rw [eq_ix0 j]
  unfold kernelTail refTail
  rw [scalar_apply, NodeValue.stored_apply _ NodeValue.pad_value, nodeSum_p, nodeSum_q, addf_apply, meanSq_apply, meanSq_apply]

end Equal

end Cert.Tails

end
-- ==== Proof.NodeLoss.lean ====
/-
  The node stage of the power-flow loss, read as one function of its operands.

  The second region has a single grid point, and every window's block is its whole array: six [784, 128] operands
  and the [1, 1] result. The body loads the six operands whole and stores one value computed from them, so the
  result array after the region is that value of the six operand arrays as the region finds them (`V` below is any
  contents of the buffers at region entry). What the value is, index by index, is read elsewhere; here it stays the
  body's own term.
-/
import proofs.«139891_j89936615178647_1_alg».proof.Proof.Gen.KernelIdeal.Frame
import Idealize.ShloMosaic.Lib.Pipeline.Value

set_option maxRecDepth 16384

noncomputable section

namespace Cert.KernelIdeal.NodeLoss

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's loads and its store start at the origin of their staging buffers. -/
theorem origin_zero : (![0, 0] : Fin 2 → Nat) = fun _ => 0 := funext fun a => by fin_cases a <;> rfl

/-- At the one grid point every window's block index is 0 on both axes. -/
theorem index_zero : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Operand 0's one block is its whole array. -/
theorem block0 (c : Dev nD) (t : Fin cfg1.N) : (iblk1 V c 0 t : Vec F S784x128 .f32) = V c main_v65 := by
  obtain ⟨e00, e01, e10, e11, e20, e21, e30, e31, e40, e41, e50, e51, -, -⟩ := index_zero t
  funext y
  show V c main_v65 (((cfg1.win 0).blk t).view.emb y) = V c main_v65 y
  refine congrArg _ (funext fun a => Fin.ext ?_)
  match a with
  | ⟨0, _⟩ => show win1_0.index t (0 : Fin 2) * 784 + 1 * (y 0).val = (y 0).val; omega
  | ⟨1, _⟩ => show win1_0.index t (1 : Fin 2) * 128 + 1 * (y 1).val = (y 1).val; omega

/-- Operand 1's one block is its whole array. -/
theorem block1 (c : Dev nD) (t : Fin cfg1.N) : (iblk1 V c 1 t : Vec F S784x128 .f32) = V c main_v67 := by
  obtain ⟨e00, e01, e10, e11, e20, e21, e30, e31, e40, e41, e50, e51, -, -⟩ := index_zero t
  funext y
  show V c main_v67 (((cfg1.win 1).blk t).view.emb y) = V c main_v67 y
  refine congrArg _ (funext fun a => Fin.ext ?_)
  match a with
  | ⟨0, _⟩ => show win1_1.index t (0 : Fin 2) * 784 + 1 * (y 0).val = (y 0).val; omega
  | ⟨1, _⟩ => show win1_1.index t (1 : Fin 2) * 128 + 1 * (y 1).val = (y 1).val; omega

/-- Operand 2's one block is its whole array. -/
theorem block2 (c : Dev nD) (t : Fin cfg1.N) : (iblk1 V c 2 t : Vec F S784x128 .f32) = V c main_v69 := by
  obtain ⟨e00, e01, e10, e11, e20, e21, e30, e31, e40, e41, e50, e51, -, -⟩ := index_zero t
  funext y
  show V c main_v69 (((cfg1.win 2).blk t).view.emb y) = V c main_v69 y
  refine congrArg _ (funext fun a => Fin.ext ?_)
  match a with
  | ⟨0, _⟩ => show win1_2.index t (0 : Fin 2) * 784 + 1 * (y 0).val = (y 0).val; omega
  | ⟨1, _⟩ => show win1_2.index t (1 : Fin 2) * 128 + 1 * (y 1).val = (y 1).val; omega

/-- Operand 3's one block is its whole array. -/
theorem block3 (c : Dev nD) (t : Fin cfg1.N) : (iblk1 V c 3 t : Vec F S784x128 .f32) = V c main_v71 := by
  obtain ⟨e00, e01, e10, e11, e20, e21, e30, e31, e40, e41, e50, e51, -, -⟩ := index_zero t
  funext y
  show V c main_v71 (((cfg1.win 3).blk t).view.emb y) = V c main_v71 y
  refine congrArg _ (funext fun a => Fin.ext ?_)
  match a with
  | ⟨0, _⟩ => show win1_3.index t (0 : Fin 2) * 784 + 1 * (y 0).val = (y 0).val; omega
  | ⟨1, _⟩ => show win1_3.index t (1 : Fin 2) * 128 + 1 * (y 1).val = (y 1).val; omega

/-- Operand 4's one block is its whole array. -/
theorem block4 (c : Dev nD) (t : Fin cfg1.N) : (iblk1 V c 4 t : Vec F S784x128 .f32) = V c main_v73 := by
  obtain ⟨e00, e01, e10, e11, e20, e21, e30, e31, e40, e41, e50, e51, -, -⟩ := index_zero t
  funext y
  show V c main_v73 (((cfg1.win 4).blk t).view.emb y) = V c main_v73 y
  refine congrArg _ (funext fun a => Fin.ext ?_)
  match a with
  | ⟨0, _⟩ => show win1_4.index t (0 : Fin 2) * 784 + 1 * (y 0).val = (y 0).val; omega
  | ⟨1, _⟩ => show win1_4.index t (1 : Fin 2) * 128 + 1 * (y 1).val = (y 1).val; omega

/-- Operand 5's one block is its whole array. -/
theorem block5 (c : Dev nD) (t : Fin cfg1.N) : (iblk1 V c 5 t : Vec F S784x128 .f32) = V c main_v75 := by
  obtain ⟨e00, e01, e10, e11, e20, e21, e30, e31, e40, e41, e50, e51, -, -⟩ := index_zero t
  funext y
  show V c main_v75 (((cfg1.win 5).blk t).view.emb y) = V c main_v75 y
  refine congrArg _ (funext fun a => Fin.ext ?_)
  match a with
  | ⟨0, _⟩ => show win1_5.index t (0 : Fin 2) * 784 + 1 * (y 0).val = (y 0).val; omega
  | ⟨1, _⟩ => show win1_5.index t (1 : Fin 2) * 128 + 1 * (y 1).val = (y 1).val; omega

/-- The value the body stores, of the six operand arrays as the region finds them (in the body's load order: the
    generation, demand and computed active powers, then the three reactive ones). -/
abbrev stored (c : Dev nD) : Vec F S1x1 .f32 :=
  k1_pay1 (V c main_v65) (V c main_v69) (V c main_v73) (V c main_v67) (V c main_v71) (V c main_v75)

/-- What the grid point writes back is the (one) block of that value. -/
theorem flushed (c : Dev nD) (t : Fin cfg1.N) :
    (dat1 V c).flushed 6 t = ((cfg1.win 6).blk t).view.read (Elt F) (stored V c) := by
  show (cfg1.win 6).cut (grid1.coords t) ((dat1 V c).after 6 t) = _
  rw [after1_6]
  unfold out1_6
  rw [View.canon_unit_zero origin_zero]
  simp only [View.ld_unit_zero (S := S784x128) origin_zero]
  rw [block0, block1, block2, block3, block4, block5]
  obtain ⟨-, -, -, -, -, -, -, -, -, -, -, -, e60, e61⟩ := index_zero t
  funext j
  show stored V c j = stored V c (((cfg1.win 6).blk t).view.emb j)
  refine congrArg _ (funext fun a => Fin.ext ?_)
  match a with
  | ⟨0, _⟩ => show (j 0).val = win1_6.index t (0 : Fin 2) * 1 + 1 * (j 0).val; omega
  | ⟨1, _⟩ => show (j 1).val = win1_6.index t (1 : Fin 2) * 1 + 1 * (j 1).val; omega

/-- An index of the result array lies in the point's block iff each coordinate lies in the block's range. -/
theorem mem_blk (t : Fin cfg1.N) (i : S1x1.Idx) :
    i ∈ ((cfg1.win 6).blk t).view.set ↔ ∀ a : Fin 2, win1_6.index t a * S1x1.size a ≤ (i a).val ∧ (i a).val < win1_6.index t a * S1x1.size a + S1x1.size a := by
  show i ∈ ((View.whole main_v76).slice (win1_6.rect t)).set ↔ _
  rw [View.set_slice_whole, Rect.mem_set_unit]
  exact Iff.rfl

/-- The one block covers the result array. -/
theorem cover (i : S1x1.Idx) : ∃ t : Fin cfg1.N, (cfg1.win 6).flush t = true ∧ i ∈ ((cfg1.win 6).blk t).view.set := by
  have hi0 : (i 0).val < 1 := (i 0).isLt
  have hi1 : (i 1).val < 1 := (i 1).isLt
  refine ⟨⟨0, by decide⟩, flush1_6 _, ?_⟩
  obtain ⟨-, -, -, -, -, -, -, -, -, -, -, -, e60, e61⟩ := index_zero ⟨0, by decide⟩
  rw [mem_blk]
  intro a
  match a with
  | ⟨0, _⟩ => show win1_6.index ⟨0, _⟩ (0 : Fin 2) * 1 ≤ (i 0).val ∧ (i 0).val < win1_6.index ⟨0, _⟩ (0 : Fin 2) * 1 + 1; omega
  | ⟨1, _⟩ => show win1_6.index ⟨0, _⟩ (1 : Fin 2) * 1 ≤ (i 1).val ∧ (i 1).val < win1_6.index ⟨0, _⟩ (1 : Fin 2) * 1 + 1; omega

/-- The result array after the region: the stored value of the operand arrays. -/
theorem final (c : Dev nD) : (dat1 V c).arrAt 6 cfg1.N = stored V c :=
  (dat1 V c).arrAt_eq_of_cover 6 _ (fun t _ => flushed V c t) cover

end Cert.KernelIdeal.NodeLoss

end
-- ==== Proof.KernelValue.lean ====
/-
  The kernel program's result, read back through @main.

  @main is host stretches around two regions. The frame names the buffer contents at every boundary as a fold from the
  launch memory; this module walks that fold backwards from the result buffer: the last stretch recasts the second
  region's [1, 1] result to a scalar; that result is the node stage's stored value of six [784, 128] operands; each
  operand is a length-100000 array continued by 352 copies of the converted integer 0 and laid out in rows of 128; two
  of those arrays are the per-node sums (a scatter-add over the edges' source nodes) of the first region's two
  results, recast to flat arrays; the first region's results are the active and reactive flows of its six operands;
  and those operands are six flat per-edge arrays in rows of 128. What is left is the kernel program's tail of eleven
  arrays the host computed before the first region.
-/
import proofs.«139891_j89936615178647_1_alg».proof.Proof.Tails
import proofs.«139891_j89936615178647_1_alg».proof.Proof.NodeLoss
import Idealize.ShloMosaic.Lib.StableHlo.Run

set_option maxRecDepth 16384

noncomputable section

namespace Cert.KernelIdeal.ValueChain

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## From the result buffer to the second region's operands -/

/-- The result buffer after the last stretch: the second region's result array recast to a scalar. -/
theorem result_recast (c : Dev nD) :
    W18 m ρ c (Proc.devRef .tc main_v77) = shapeCast S_ (W17 m ρ c (Proc.devRef .tc main_v76)) shapeCasts_S1x1_S_ := by
  dsimp only [W18, hostOps2]
  after_results
  rfl

/-- The second region's result array at its exit: the node stage's stored value of its operands at entry. -/
theorem node_result (c : Dev nD) : W17 m ρ c (Proc.devRef .tc main_v76) = NodeLoss.stored (V16 m ρ) c :=
  (W17_arr m ρ c 6).trans (NodeLoss.final (V16 m ρ) c)

/-! ## The second region's operands, from the first region's exit contents -/

/-- The generated active power, continued by zeros in rows of 128. -/
theorem operand_pg (c : Dev nD) : V16 m ρ c main_v65 = Tails.nodeRows (W3 m ρ c (Proc.devRef .tc main_v6)) := by
  dsimp only [V16, W16, W15, W14, W13, W12, W11, W10, W9, W8, W7, W6, W5, W4, hostOps1, hostOps1_1, hostOps1_2, hostOps1_3, hostOps1_4, hostOps1_5, hostOps1_6, hostOps1_7, hostOps1_8, hostOps1_9, hostOps1_10, hostOps1_11, hostOps1_12]
  after_results
  rfl

/-- The generated reactive power. -/
theorem operand_qg (c : Dev nD) : V16 m ρ c main_v67 = Tails.nodeRows (W3 m ρ c (Proc.devRef .tc main_v8)) := by
  dsimp only [V16, W16, W15, W14, W13, W12, W11, W10, W9, W8, W7, W6, W5, W4, hostOps1, hostOps1_1, hostOps1_2, hostOps1_3, hostOps1_4, hostOps1_5, hostOps1_6, hostOps1_7, hostOps1_8, hostOps1_9, hostOps1_10, hostOps1_11, hostOps1_12]
  after_results
  rfl

/-- The demanded active power. -/
theorem operand_pd (c : Dev nD) : V16 m ρ c main_v69 = Tails.nodeRows (W3 m ρ c (Proc.devRef .tc main_v10)) := by
  dsimp only [V16, W16, W15, W14, W13, W12, W11, W10, W9, W8, W7, W6, W5, W4, hostOps1, hostOps1_1, hostOps1_2, hostOps1_3, hostOps1_4, hostOps1_5, hostOps1_6, hostOps1_7, hostOps1_8, hostOps1_9, hostOps1_10, hostOps1_11, hostOps1_12]
  after_results
  rfl

/-- The demanded reactive power. -/
theorem operand_qd (c : Dev nD) : V16 m ρ c main_v71 = Tails.nodeRows (W3 m ρ c (Proc.devRef .tc main_v12)) := by
  dsimp only [V16, W16, W15, W14, W13, W12, W11, W10, W9, W8, W7, W6, W5, W4, hostOps1, hostOps1_1, hostOps1_2, hostOps1_3, hostOps1_4, hostOps1_5, hostOps1_6, hostOps1_7, hostOps1_8, hostOps1_9, hostOps1_10, hostOps1_11, hostOps1_12]
  after_results
  rfl

set_option maxHeartbeats 1600000 in
/-- The computed active power: the first region's first result summed per source node. -/
theorem operand_pc (c : Dev nD) : V16 m ρ c main_v73 = Tails.nodeRows (Tails.nodeSumK (W3 m ρ c (Proc.devRef .tc main_v18)) (W3 m ρ c (Proc.devRef .tc main_v55_0))) := by
  dsimp only [V16, W16, W15, W14, W13, W12, W11, W10, W9, W8, W7, W6, W5, W4, hostOps1, hostOps1_1, hostOps1_2, hostOps1_3, hostOps1_4, hostOps1_5, hostOps1_6, hostOps1_7, hostOps1_8, hostOps1_9, hostOps1_10, hostOps1_11, hostOps1_12]
  after_results_simp
  rfl

set_option maxHeartbeats 1600000 in
/-- The computed reactive power: the first region's second result summed per source node. -/
theorem operand_qc (c : Dev nD) : V16 m ρ c main_v75 = Tails.nodeRows (Tails.nodeSumK (W3 m ρ c (Proc.devRef .tc main_v18)) (W3 m ρ c (Proc.devRef .tc main_v55_1))) := by
  dsimp only [V16, W16, W15, W14, W13, W12, W11, W10, W9, W8, W7, W6, W5, W4, hostOps1, hostOps1_1, hostOps1_2, hostOps1_3, hostOps1_4, hostOps1_5, hostOps1_6, hostOps1_7, hostOps1_8, hostOps1_9, hostOps1_10, hostOps1_11, hostOps1_12]
  after_results_simp
  rfl

/-! ## Across the first region: what it leaves alone, and its two results -/

theorem kept_v6 (c : Dev nD) : W3 m ρ c (Proc.devRef .tc main_v6) = W2 m ρ c (Proc.devRef .tc main_v6) :=
  W3_of_ne m ρ c main_v6 (by decide)

theorem kept_v8 (c : Dev nD) : W3 m ρ c (Proc.devRef .tc main_v8) = W2 m ρ c (Proc.devRef .tc main_v8) :=
  W3_of_ne m ρ c main_v8 (by decide)

theorem kept_v10 (c : Dev nD) : W3 m ρ c (Proc.devRef .tc main_v10) = W2 m ρ c (Proc.devRef .tc main_v10) :=
  W3_of_ne m ρ c main_v10 (by decide)

theorem kept_v12 (c : Dev nD) : W3 m ρ c (Proc.devRef .tc main_v12) = W2 m ρ c (Proc.devRef .tc main_v12) :=
  W3_of_ne m ρ c main_v12 (by decide)

theorem kept_v18 (c : Dev nD) : W3 m ρ c (Proc.devRef .tc main_v18) = W2 m ρ c (Proc.devRef .tc main_v18) :=
  W3_of_ne m ρ c main_v18 (by decide)

/-- The first region's first result at its exit: the active flow of its operands at entry. -/
theorem edge_result_p (c : Dev nD) : W3 m ρ c (Proc.devRef .tc main_v55_0)
    = EdgeFlow.pflow (S := S25000x128) (V2 m ρ c main_v49) (V2 m ρ c main_v50) (V2 m ρ c main_v51) (V2 m ρ c main_v52) (V2 m ρ c main_v53) (V2 m ρ c main_v54) :=
  (W3_arr m ρ c 6).trans (EdgeFlow.pflow_final (V2 m ρ) c)

/-- Its second result: the reactive flow. -/
theorem edge_result_q (c : Dev nD) : W3 m ρ c (Proc.devRef .tc main_v55_1)
    = EdgeFlow.qflow (S := S25000x128) (V2 m ρ c main_v49) (V2 m ρ c main_v50) (V2 m ρ c main_v51) (V2 m ρ c main_v52) (V2 m ρ c main_v53) (V2 m ρ c main_v54) :=
  (W3_arr m ρ c 7).trans (EdgeFlow.qflow_final (V2 m ρ) c)

/-! ## The first region's operands: six flat per-edge arrays in rows of 128 -/

theorem edge_operand0 (c : Dev nD) : V2 m ρ c main_v49 = Tails.edgeRows (W2 m ρ c (Proc.devRef .tc main_v27)) := by
  dsimp only [V2, W2, hostOps0_1]
  after_results_simp
  rfl

theorem edge_operand1 (c : Dev nD) : V2 m ρ c main_v50 = Tails.edgeRows (W2 m ρ c (Proc.devRef .tc main_v34)) := by
  dsimp only [V2, W2, hostOps0_1]
  after_results_simp
  rfl

theorem edge_operand2 (c : Dev nD) : V2 m ρ c main_v51 = Tails.edgeRows (W2 m ρ c (Proc.devRef .tc main_v41)) := by
  dsimp only [V2, W2, hostOps0_1]
  after_results_simp
  rfl

theorem edge_operand3 (c : Dev nD) : V2 m ρ c main_v52 = Tails.edgeRows (W2 m ρ c (Proc.devRef .tc main_v48)) := by
  dsimp only [V2, W2, hostOps0_1]
  after_results_simp
  rfl

theorem edge_operand4 (c : Dev nD) : V2 m ρ c main_v53 = Tails.edgeRows (W2 m ρ c (Proc.devRef .tc main_v14)) := by
  dsimp only [V2, W2, hostOps0_1]
  after_results_simp
  rfl

theorem edge_operand5 (c : Dev nD) : V2 m ρ c main_v54 = Tails.edgeRows (W2 m ρ c (Proc.devRef .tc main_v16)) := by
  dsimp only [V2, W2, hostOps0_1]
  after_results_simp
  rfl

/-! ## The walk, assembled -/

/-- The result buffer after @main: the kernel program's tail of the eleven arrays the host computed before the first
    region (the two end voltages, the two end angles, the two admittance columns, the source nodes, and the four
    generated and demanded power columns). -/
theorem result_eq (c : Dev nD) : W18 m ρ c (Proc.devRef .tc main_v77)
    = Tails.kernelTail (W2 m ρ c (Proc.devRef .tc main_v27)) (W2 m ρ c (Proc.devRef .tc main_v34))
        (W2 m ρ c (Proc.devRef .tc main_v41)) (W2 m ρ c (Proc.devRef .tc main_v48))
        (W2 m ρ c (Proc.devRef .tc main_v14)) (W2 m ρ c (Proc.devRef .tc main_v16))
        (W2 m ρ c (Proc.devRef .tc main_v18))
        (W2 m ρ c (Proc.devRef .tc main_v6)) (W2 m ρ c (Proc.devRef .tc main_v8))
        (W2 m ρ c (Proc.devRef .tc main_v10)) (W2 m ρ c (Proc.devRef .tc main_v12)) := by
  rw [result_recast, node_result]
  unfold NodeLoss.stored Tails.kernelTail
  rw [operand_pg, operand_qg, operand_pd, operand_qd, operand_pc, operand_qc, edge_result_p, edge_result_q,
    edge_operand0, edge_operand1, edge_operand2, edge_operand3, edge_operand4, edge_operand5,
    kept_v6, kept_v8, kept_v10, kept_v12, kept_v18]

end Cert.KernelIdeal.ValueChain

end
-- ==== Proof.RefValue.lean ====
/-
  The reference's result as its tail of the kernel program's eleven common arrays.

  Up to the first region the kernel program's @main and the reference's @main are the same host operations on the same
  arguments: the select between the two node tables, the six node columns, the two admittance columns, the two rows
  of node indices, and the four gathers at indices wrapped into range. So when the two launch memories agree on the
  arguments, the eleven arrays the kernel program holds when it enters its first region are the ones the reference
  computes, and the reference's result, which its run states as one composed term of the arguments, is the
  reference's tail of them.
-/
import proofs.«139891_j89936615178647_1_alg».proof.Proof.Tails
import proofs.«139891_j89936615178647_1_alg».proof.Proof.Gen.ReferenceIdeal.Run
import Idealize.ShloMosaic.Lib.StableHlo.Run

set_option maxRecDepth 16384

noncomputable section

namespace Cert.RefValue

open Idealize.ShloMosaic Idealize.ShloMosaic.TcCoe Idealize.SL.Sem Idealize.ShloMosaic.StableHlo
open Cert.KernelIdeal.Gen

variable {F : FTy → Type} [FloatOps F]

set_option maxHeartbeats 4000000 in
/-- From launch memories that agree on the five arguments, the reference's composed result term is the reference's
    tail of the arrays the kernel program's fold holds at its first region's entry. -/
theorem ref_result (m : (ℓ : Loc Cert.KernelIdeal.nD Cert.KernelIdeal.τ Cert.KernelIdeal.sig) → Buf (Elt F) ℓ)
    (ρ : Dev Cert.KernelIdeal.nD → PrngReg)
    (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v77 m' c
      = Tails.refTail (W2 m ρ c (Proc.devRef .tc Cert.KernelIdeal.main_v27)) (W2 m ρ c (Proc.devRef .tc Cert.KernelIdeal.main_v34))
          (W2 m ρ c (Proc.devRef .tc Cert.KernelIdeal.main_v41)) (W2 m ρ c (Proc.devRef .tc Cert.KernelIdeal.main_v48))
          (W2 m ρ c (Proc.devRef .tc Cert.KernelIdeal.main_v14)) (W2 m ρ c (Proc.devRef .tc Cert.KernelIdeal.main_v16))
          (W2 m ρ c (Proc.devRef .tc Cert.KernelIdeal.main_v18))
          (W2 m ρ c (Proc.devRef .tc Cert.KernelIdeal.main_v6)) (W2 m ρ c (Proc.devRef .tc Cert.KernelIdeal.main_v8))
          (W2 m ρ c (Proc.devRef .tc Cert.KernelIdeal.main_v10)) (W2 m ρ c (Proc.devRef .tc Cert.KernelIdeal.main_v12)) := by
  unfold Cert.ReferenceIdeal.Value.res_main_v77
  rw [h0, h1, h2, h3, h4]
  unfold Tails.refTail
  dsimp only [W2, W1, W0, hostOps0_1, hostOps0]
  after_results_simp
  rfl

end Cert.RefValue

end
-- ==== Proof.lean ====
/-
  The power-flow imbalance loss of a graph solver, kernel against reference, over the extended reals.

  Both programs select between two [100000, 6] node tables by a mask, take six node columns (voltage magnitude and angle,
  generated and demanded active and reactive power) and two edge columns (conductance g and susceptance b), gather the
  end voltages and end angles of 3200000 edges at node indices wrapped into range, form for each edge, with
  δ = θ_src − θ_dst and vv = v_from · v_to, the active flow vv · (g cos δ + b sin δ) and the reactive flow
  vv · (g sin δ − b cos δ), sum each flow over the edges leaving a node, and return
  mean((pg − pd − p_calc)²) + mean((qg − qd − q_calc)²) over the 100000 nodes.

  The kernel program computes the flows in one region on the edge arrays laid out in rows of 128, and the two means in
  a second region on the node arrays continued by zeros to 784 rows of 128 (lane sums, then the sum of the row sums,
  then the division by 100000); the reference does both on flat arrays. At the exact instance the flows are pointwise,
  so the layout does not matter; cosine and sine are one function on the kernel's and the host's side; the per-node sums
  are one host operation of equal operands; and a finite sum of extended reals may be regrouped and may drop zero
  terms with no side condition, so the precondition is never opened.

  The frames of the two kernel programs are their generated frame certificates; the reference's is its generated run;
  the idealization rewrote nothing. The equal results: the kernel program's run names its result buffer at the last
  boundary of its fold through @main; walking the fold back gives the kernel program's tail of eleven arrays the host
  computed before the first region; that tail equals the reference's tail of the same arrays; and the reference's run
  states its result as a term that is the reference's tail of those arrays when the arguments agree.
-/
import proofs.«139891_j89936615178647_1_alg».proof.Defs
import proofs.«139891_j89936615178647_1_alg».proof.Proof.Gen.Kernel.Frame
import proofs.«139891_j89936615178647_1_alg».proof.Proof.Gen.KernelIdeal.Frame
import proofs.«139891_j89936615178647_1_alg».proof.Proof.Gen.ReferenceIdeal.Run
import proofs.«139891_j89936615178647_1_alg».proof.Proof.Gen.Pre_finite_inputs
import proofs.«139891_j89936615178647_1_alg».proof.Proof.KernelRun
import proofs.«139891_j89936615178647_1_alg».proof.Proof.KernelValue
import proofs.«139891_j89936615178647_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's tail of the eleven arrays the host computes before the first region. -/
theorem algebraic : Cert.algebraic_KernelIdeal_ReferenceIdeal := by
  intro m ρ m' ρ' _ hagree
  refine ⟨fun c => Cert.Tails.refTail (F := Ideal)
        (Cert.KernelIdeal.Gen.W2 m ρ c (Proc.devRef .tc Cert.KernelIdeal.main_v27))
        (Cert.KernelIdeal.Gen.W2 m ρ c (Proc.devRef .tc Cert.KernelIdeal.main_v34))
        (Cert.KernelIdeal.Gen.W2 m ρ c (Proc.devRef .tc Cert.KernelIdeal.main_v41))
        (Cert.KernelIdeal.Gen.W2 m ρ c (Proc.devRef .tc Cert.KernelIdeal.main_v48))
        (Cert.KernelIdeal.Gen.W2 m ρ c (Proc.devRef .tc Cert.KernelIdeal.main_v14))
        (Cert.KernelIdeal.Gen.W2 m ρ c (Proc.devRef .tc Cert.KernelIdeal.main_v16))
        (Cert.KernelIdeal.Gen.W2 m ρ c (Proc.devRef .tc Cert.KernelIdeal.main_v18))
        (Cert.KernelIdeal.Gen.W2 m ρ c (Proc.devRef .tc Cert.KernelIdeal.main_v6))
        (Cert.KernelIdeal.Gen.W2 m ρ c (Proc.devRef .tc Cert.KernelIdeal.main_v8))
        (Cert.KernelIdeal.Gen.W2 m ρ c (Proc.devRef .tc Cert.KernelIdeal.main_v10))
        (Cert.KernelIdeal.Gen.W2 m ρ c (Proc.devRef .tc Cert.KernelIdeal.main_v12)), ?_, ?_⟩
  · refine (θ_run Cert.KernelIdeal.defs _ _).mono (fun r h c => ⟨(h c).1.trans ?_, (h c).2⟩)
      (Cert.KernelIdeal.GenRun.run_result (F := Ideal) m ρ)
    rw [Cert.KernelIdeal.ValueChain.result_eq, Cert.Tails.tails_eq]
  · refine (θ_run Cert.ReferenceIdeal.defs _ _).mono (fun r h c => ⟨(h c).1.trans ?_, (h c).2⟩)
      (Cert.ReferenceIdeal.Value.run (F := Ideal) m' ρ')
    exact Cert.RefValue.ref_result m ρ m' c (hagree c).1 (hagree c).2.1 (hagree c).2.2.1 (hagree c).2.2.2.1 (hagree c).2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
